-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x64 : Shape := ⟨3, ![2, 2048, 64]⟩
abbrev S2x2048x2048 : Shape := ⟨3, ![2, 2048, 2048]⟩
abbrev S5x128x64 : Shape := ⟨3, ![5, 128, 64]⟩
abbrev S2048x64 : Shape := ⟨2, ![2048, 64]⟩
abbrev S_ : Shape := ⟨0, ![]⟩

class Facts : Prop where
  bcast_S_S2x2048x64 : S_.BroadcastsInDim S2x2048x64 (![] : Fin 0 → Fin S2x2048x64.rank)
  reducesTo_S2x2048x64_S_d0_1_2 : S2x2048x64.ReducesTo [0, 1, 2] S_
  h_S_ : 0 < S_.numel
  bcast_S_S2x2048x2048 : S_.BroadcastsInDim S2x2048x2048 (![] : Fin 0 → Fin S2x2048x2048.rank)
  reducesTo_S2x2048x2048_S_d0_1_2 : S2x2048x2048.ReducesTo [0, 1, 2] S_
  bcast_S_S5x128x64 : S_.BroadcastsInDim S5x128x64 (![] : Fin 0 → Fin S5x128x64.rank)
  reducesTo_S5x128x64_S_d0_1_2 : S5x128x64.ReducesTo [0, 1, 2] S_
  bcast_S_S2048x64 : S_.BroadcastsInDim S2048x64 (![] : Fin 0 → Fin S2048x64.rank)
  reducesTo_S2048x64_S_d0_1 : S2048x64.ReducesTo [0, 1] S_

variable [Facts]

def fn_part2 {F : FTy → Type} [FloatOps F] (main_arg7 : FVec F S2048x64 .f32) (main_arg8 : FVec F S2048x64 .f32) (main_v33 : IVec S_ 1) : IVec S_ 1 :=
  let main_v34 : FVec F S2048x64 .f32 := Host.absf main_arg7
  let main_cst_12 : FVec F S_ .f32 := constant S_ .f32 0x7F800000#32
  let main_v35 : FVec F S2048x64 .f32 := broadcastInDim S2048x64 ![] bcast_S_S2048x64 main_cst_12
  let main_v36 : IVec S2048x64 1 := cmpf .olt main_v34 main_v35
  let main_c_13 : IVec S_ 1 := constantI S_ 1 1#1
  let main_v37 : IVec S_ 1 := (fun x v => Host.reduce IntOp.andi x v reducesTo_S2048x64_S_d0_1 h_S_) main_v36 main_c_13
  let main_v38 : IVec S_ 1 := andi main_v33 main_v37
  let main_v39 : FVec F S2048x64 .f32 := Host.absf main_arg8
  let main_cst_14 : FVec F S_ .f32 := constant S_ .f32 0x7F800000#32
  let main_v40 : FVec F S2048x64 .f32 := broadcastInDim S2048x64 ![] bcast_S_S2048x64 main_cst_14
  let main_v41 : IVec S2048x64 1 := cmpf .olt main_v39 main_v40
  let main_c_15 : IVec S_ 1 := constantI S_ 1 1#1
  let main_v42 : IVec S_ 1 := (fun x v => Host.reduce IntOp.andi x v reducesTo_S2048x64_S_d0_1 h_S_) main_v41 main_c_15
  let main_v43 : IVec S_ 1 := andi main_v38 main_v42
  main_v43

def fn_part1 {F : FTy → Type} [FloatOps F] (main_arg4 : FVec F S5x128x64 .f32) (main_arg5 : FVec F S5x128x64 .f32) (main_arg6 : FVec F S2048x64 .f32) (main_arg7 : FVec F S2048x64 .f32) (main_arg8 : FVec F S2048x64 .f32) (main_v13 : IVec S_ 1) (main_v16 : IVec S5x128x64 1) : IVec S_ 1 :=
  let main_c_5 : IVec S_ 1 := constantI S_ 1 1#1
  let main_v17 : IVec S_ 1 := (fun x v => Host.reduce IntOp.andi x v reducesTo_S5x128x64_S_d0_1_2 h_S_) main_v16 main_c_5
  let main_v18 : IVec S_ 1 := andi main_v13 main_v17
  let main_v19 : FVec F S5x128x64 .f32 := Host.absf main_arg4
  let main_cst_6 : FVec F S_ .f32 := constant S_ .f32 0x7F800000#32
  let main_v20 : FVec F S5x128x64 .f32 := broadcastInDim S5x128x64 ![] bcast_S_S5x128x64 main_cst_6
  let main_v21 : IVec S5x128x64 1 := cmpf .olt main_v19 main_v20
  let main_c_7 : IVec S_ 1 := constantI S_ 1 1#1
  let main_v22 : IVec S_ 1 := (fun x v => Host.reduce IntOp.andi x v reducesTo_S5x128x64_S_d0_1_2 h_S_) main_v21 main_c_7
  let main_v23 : IVec S_ 1 := andi main_v18 main_v22
  let main_v24 : FVec F S5x128x64 .f32 := Host.absf main_arg5
  let main_cst_8 : FVec F S_ .f32 := constant S_ .f32 0x7F800000#32
  let main_v25 : FVec F S5x128x64 .f32 := broadcastInDim S5x128x64 ![] bcast_S_S5x128x64 main_cst_8
  let main_v26 : IVec S5x128x64 1 := cmpf .olt main_v24 main_v25
  let main_c_9 : IVec S_ 1 := constantI S_ 1 1#1
  let main_v27 : IVec S_ 1 := (fun x v => Host.reduce IntOp.andi x v reducesTo_S5x128x64_S_d0_1_2 h_S_) main_v26 main_c_9
  let main_v28 : IVec S_ 1 := andi main_v23 main_v27
  let main_v29 : FVec F S2048x64 .f32 := Host.absf main_arg6
  let main_cst_10 : FVec F S_ .f32 := constant S_ .f32 0x7F800000#32
  let main_v30 : FVec F S2048x64 .f32 := broadcastInDim S2048x64 ![] bcast_S_S2048x64 main_cst_10
  let main_v31 : IVec S2048x64 1 := cmpf .olt main_v29 main_v30
  let main_c_11 : IVec S_ 1 := constantI S_ 1 1#1
  let main_v32 : IVec S_ 1 := (fun x v => Host.reduce IntOp.andi x v reducesTo_S2048x64_S_d0_1 h_S_) main_v31 main_c_11
  let main_v33 : IVec S_ 1 := andi main_v28 main_v32
  fn_part2 (F := F) main_arg7 main_arg8 main_v33

def fn {F : FTy → Type} [FloatOps F] (main_arg0 : FVec F S2x2048x64 .f32) (main_arg1 : FVec F S2x2048x2048 .f32) (main_arg2 : FVec F S2x2048x64 .f32) (main_arg3 : FVec F S5x128x64 .f32) (main_arg4 : FVec F S5x128x64 .f32) (main_arg5 : FVec F S5x128x64 .f32) (main_arg6 : FVec F S2048x64 .f32) (main_arg7 : FVec F S2048x64 .f32) (main_arg8 : FVec F S2048x64 .f32) : IVec S_ 1 :=
  let main_v0 : FVec F S2x2048x64 .f32 := Host.absf main_arg0
  let main_cst : FVec F S_ .f32 := constant S_ .f32 0x7F800000#32
  let main_v1 : FVec F S2x2048x64 .f32 := broadcastInDim S2x2048x64 ![] bcast_S_S2x2048x64 main_cst
  let main_v2 : IVec S2x2048x64 1 := cmpf .olt main_v0 main_v1
  let main_c : IVec S_ 1 := constantI S_ 1 1#1
  let main_v3 : IVec S_ 1 := (fun x v => Host.reduce IntOp.andi x v reducesTo_S2x2048x64_S_d0_1_2 h_S_) main_v2 main_c
  let main_v4 : FVec F S2x2048x2048 .f32 := Host.absf main_arg1
  let main_cst_0 : FVec F S_ .f32 := constant S_ .f32 0x7F800000#32
  let main_v5 : FVec F S2x2048x2048 .f32 := broadcastInDim S2x2048x2048 ![] bcast_S_S2x2048x2048 main_cst_0
  let main_v6 : IVec S2x2048x2048 1 := cmpf .olt main_v4 main_v5
  let main_c_1 : IVec S_ 1 := constantI S_ 1 1#1
  let main_v7 : IVec S_ 1 := (fun x v => Host.reduce IntOp.andi x v reducesTo_S2x2048x2048_S_d0_1_2 h_S_) main_v6 main_c_1
  let main_v8 : IVec S_ 1 := andi main_v3 main_v7
  let main_v9 : FVec F S2x2048x64 .f32 := Host.absf main_arg2
  let main_cst_2 : FVec F S_ .f32 := constant S_ .f32 0x7F800000#32
  let main_v10 : FVec F S2x2048x64 .f32 := broadcastInDim S2x2048x64 ![] bcast_S_S2x2048x64 main_cst_2
  let main_v11 : IVec S2x2048x64 1 := cmpf .olt main_v9 main_v10
  let main_c_3 : IVec S_ 1 := constantI S_ 1 1#1
  let main_v12 : IVec S_ 1 := (fun x v => Host.reduce IntOp.andi x v reducesTo_S2x2048x64_S_d0_1_2 h_S_) main_v11 main_c_3
  let main_v13 : IVec S_ 1 := andi main_v8 main_v12
  let main_v14 : FVec F S5x128x64 .f32 := Host.absf main_arg3
  let main_cst_4 : FVec F S_ .f32 := constant S_ .f32 0x7F800000#32
  let main_v15 : FVec F S5x128x64 .f32 := broadcastInDim S5x128x64 ![] bcast_S_S5x128x64 main_cst_4
  let main_v16 : IVec S5x128x64 1 := cmpf .olt main_v14 main_v15
  fn_part1 (F := F) main_arg4 main_arg5 main_arg6 main_arg7 main_arg8 main_v13 main_v16
-- ==== Kernel.lean ====
abbrev S2x2048x64 : Shape := ⟨3, ![2, 2048, 64]⟩
abbrev S2x2048x2048 : Shape := ⟨3, ![2, 2048, 2048]⟩
abbrev S5x128x64 : Shape := ⟨3, ![5, 128, 64]⟩
abbrev S2048x64 : Shape := ⟨2, ![2048, 64]⟩
abbrev S5x128x128 : Shape := ⟨3, ![5, 128, 128]⟩
abbrev S128x5x128 : Shape := ⟨3, ![128, 5, 128]⟩
abbrev S128x640 : Shape := ⟨2, ![128, 640]⟩
abbrev S128x5x64 : Shape := ⟨3, ![128, 5, 64]⟩
abbrev S128x320 : Shape := ⟨2, ![128, 320]⟩
abbrev S1x2048x64 : Shape := ⟨3, ![1, 2048, 64]⟩
abbrev S2048x128 : Shape := ⟨2, ![2048, 128]⟩
abbrev S2048x640 : Shape := ⟨2, ![2048, 640]⟩
abbrev S1x2048x2048 : Shape := ⟨3, ![1, 2048, 2048]⟩
abbrev S2048x2048 : Shape := ⟨2, ![2048, 2048]⟩
abbrev S2048x320 : Shape := ⟨2, ![2048, 320]⟩

abbrev nBuf : Space → Nat
  | .hbm => 16
  | .vmem => 9
  | .smem => 0
  | _ => 0

abbrev bufTy : (tb : Table) → Fin (tcTables nBuf tb) → BufTy
  | .hbm, ⟨0, _⟩ => ⟨S2x2048x64, .f32⟩
  | .hbm, ⟨1, _⟩ => ⟨S2x2048x2048, .f32⟩
  | .hbm, ⟨2, _⟩ => ⟨S2x2048x64, .f32⟩
  | .hbm, ⟨3, _⟩ => ⟨S5x128x64, .f32⟩
  | .hbm, ⟨4, _⟩ => ⟨S5x128x64, .f32⟩
  | .hbm, ⟨5, _⟩ => ⟨S5x128x64, .f32⟩
  | .hbm, ⟨6, _⟩ => ⟨S2048x64, .f32⟩
  | .hbm, ⟨7, _⟩ => ⟨S2048x64, .f32⟩
  | .hbm, ⟨8, _⟩ => ⟨S2048x64, .f32⟩
  | .hbm, ⟨9, _⟩ => ⟨S2x2048x2048, .bf16⟩
  | .hbm, ⟨10, _⟩ => ⟨S5x128x128, .f32⟩
  | .hbm, ⟨11, _⟩ => ⟨S128x5x128, .f32⟩
  | .hbm, ⟨12, _⟩ => ⟨S128x640, .f32⟩
  | .hbm, ⟨13, _⟩ => ⟨S128x5x64, .f32⟩
  | .hbm, ⟨14, _⟩ => ⟨S128x320, .f32⟩
  | .hbm, ⟨15, _⟩ => ⟨S2x2048x64, .f32⟩
  | .local _ .vmem, ⟨0, _⟩ => ⟨S2x2048x2048, .bf16⟩
  | .local _ .vmem, ⟨1, _⟩ => ⟨S2x2048x64, .f32⟩
  | .local _ .vmem, ⟨2, _⟩ => ⟨S2x2048x64, .f32⟩
  | .local _ .vmem, ⟨3, _⟩ => ⟨S128x640, .f32⟩
  | .local _ .vmem, ⟨4, _⟩ => ⟨S128x320, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2x2048x64, .f32⟩
  | _, _ => ⟨S2x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x2048x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

class Facts₀ : Prop where
  bitsLt_bf16_f32 : FTy.bits .bf16 < FTy.bits .f32
  concatenates_S5x128x64_S5x128x64_S5x128x128_d2 : Shape.Concatenates [S5x128x64, S5x128x64] S5x128x128 2
  transposes_S5x128x128_S128x5x128_1_0_2 : S5x128x128.Transposes [1, 0, 2] S128x5x128
  shapeCasts_S128x5x128_S128x640 : S128x5x128.ShapeCasts S128x640
  transposes_S5x128x64_S128x5x64_1_0_2 : S5x128x64.Transposes [1, 0, 2] S128x5x64
  shapeCasts_S128x5x64_S128x320 : S128x5x64.ShapeCasts S128x320
  inb_S2x2048x64_S1x2048x64_0_0_0 : ∀ a, (![0, 0, 0] : Fin 3 → Nat) a + S1x2048x64.size a ≤ S2x2048x64.size a
  h_S1x2048x64 : 0 < S1x2048x64.numel
  shapeCasts_S1x2048x64_S2048x64 : S1x2048x64.ShapeCasts S2048x64
  concatenates_S2048x64_S2048x64_S2048x128_d1 : Shape.Concatenates [S2048x64, S2048x64] S2048x128 1
  inb_S2x2048x64_S1x2048x64_1_0_0 : ∀ a, (![1, 0, 0] : Fin 3 → Nat) a + S1x2048x64.size a ≤ S2x2048x64.size a
  inb_S128x640_S128x640_0_0 : ∀ a, (![0, 0] : Fin 2 → Nat) a + S128x640.size a ≤ S128x640.size a
  h_S128x640 : 0 < S128x640.numel
  shapeCasts_S128x640_S128x640 : S128x640.ShapeCasts S128x640
  slices_S2048x640_o0_512_S2048x128 : S2048x640.Slices ![0, 512] S2048x128
  inb_S2x2048x2048_S1x2048x2048_0_0_0 : ∀ a, (![0, 0, 0] : Fin 3 → Nat) a + S1x2048x2048.size a ≤ S2x2048x2048.size a
  h_S1x2048x2048 : 0 < S1x2048x2048.numel
  shapeCasts_S1x2048x2048_S2048x2048 : S1x2048x2048.ShapeCasts S2048x2048
  slices_S2048x640_o0_384_S2048x128 : S2048x640.Slices ![0, 384] S2048x128
  inb_S2x2048x2048_S1x2048x2048_1_0_0 : ∀ a, (![1, 0, 0] : Fin 3 → Nat) a + S1x2048x2048.size a ≤ S2x2048x2048.size a
  slices_S2048x640_o0_256_S2048x128 : S2048x640.Slices ![0, 256] S2048x128
  slices_S2048x640_o0_128_S2048x128 : S2048x640.Slices ![0, 128] S2048x128
  slices_S2048x640_o0_0_S2048x128 : S2048x640.Slices ![0, 0] S2048x128
  slices_S2048x128_o0_0_S2048x64 : S2048x128.Slices ![0, 0] S2048x64
  inb_S2048x64_S2048x64_0_0 : ∀ a, (![0, 0] : Fin 2 → Nat) a + S2048x64.size a ≤ S2048x64.size a
  h_S2048x64 : 0 < S2048x64.numel
  slices_S2048x128_o0_64_S2048x64 : S2048x128.Slices ![0, 64] S2048x64
  inb_S128x320_S128x320_0_0 : ∀ a, (![0, 0] : Fin 2 → Nat) a + S128x320.size a ≤ S128x320.size a
  h_S128x320 : 0 < S128x320.numel
  shapeCasts_S128x320_S128x320 : S128x320.ShapeCasts S128x320
  slices_S2048x320_o0_256_S2048x64 : S2048x320.Slices ![0, 256] S2048x64
  slices_S2048x320_o0_192_S2048x64 : S2048x320.Slices ![0, 192] S2048x64
  slices_S2048x320_o0_128_S2048x64 : S2048x320.Slices ![0, 128] S2048x64
  slices_S2048x320_o0_64_S2048x64 : S2048x320.Slices ![0, 64] S2048x64
  slices_S2048x320_o0_0_S2048x64 : S2048x320.Slices ![0, 0] S2048x64
  shapeCasts_S2048x64_S1x2048x64 : S2048x64.ShapeCasts S1x2048x64
  dot_S2048x128_S128x640_S2048x640_1_0_0_1_n_n_wf : DotDims.WF S2048x128 S128x640 S2048x640 [1] [0] [0] [1] [] []
  dot_S2048x2048_S2048x128_S2048x128_1_0_0_1_n_n_wf : DotDims.WF S2048x2048 S2048x128 S2048x128 [1] [0] [0] [1] [] []
  dot_S2048x128_S128x320_S2048x320_1_0_0_1_n_n_wf : DotDims.WF S2048x128 S128x320 S2048x320 [1] [0] [0] [1] [] []
  dot_S2048x2048_S2048x64_S2048x64_1_0_0_1_n_n_wf : DotDims.WF S2048x2048 S2048x64 S2048x64 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole

variable [Facts₀]

def dot_S2048x128_S128x640_S2048x640_1_0_0_1_n_n : DotDims S2048x128 S128x640 S2048x640 where
  lhsContracting := [1]
  rhsContracting := [0]
  lhsNonContracting := [0]
  rhsNonContracting := [1]
  lhsBatch := []
  rhsBatch := []
  wf := dot_S2048x128_S128x640_S2048x640_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x128_S128x320_S2048x320_1_0_0_1_n_n : DotDims S2048x128 S128x320 S2048x320 where
  lhsContracting := [1]
  rhsContracting := [0]
  lhsNonContracting := [0]
  rhsNonContracting := [1]
  lhsBatch := []
  rhsBatch := []
  wf := dot_S2048x128_S128x320_S2048x320_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

abbrev win0_0 : Pipeline.Window sig grid0 :=
  Pipeline.Window.whole (Memref.whole main_call0_v0) false false (stage0_0 0) (sem0_0 0) (Memref.isWhole_whole _) (hstage0_0 0)

abbrev win0_1 : Pipeline.Window sig grid0 :=
  Pipeline.Window.whole (Memref.whole main_arg0) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_call0_v3) false false (stage0_3 0) (sem0_3 0) (Memref.isWhole_whole _) (hstage0_3 0)

abbrev win0_4 : Pipeline.Window sig grid0 :=
  Pipeline.Window.whole (Memref.whole main_call0_v5) false false (stage0_4 0) (sem0_4 0) (Memref.isWhole_whole _) (hstage0_4 0)

abbrev win0_5 : Pipeline.Window sig grid0 :=
  Pipeline.Window.whole (Memref.whole main_arg6) false false (stage0_5 0) (sem0_5 0) (Memref.isWhole_whole _) (hstage0_5 0)

abbrev win0_6 : Pipeline.Window sig grid0 :=
  Pipeline.Window.whole (Memref.whole main_arg7) false false (stage0_6 0) (sem0_6 0) (Memref.isWhole_whole _) (hstage0_6 0)

abbrev win0_7 : Pipeline.Window sig grid0 :=
  Pipeline.Window.whole (Memref.whole main_arg8) false false (stage0_7 0) (sem0_7 0) (Memref.isWhole_whole _) (hstage0_7 0)

abbrev win0_8 : Pipeline.Window sig grid0 :=
  Pipeline.Window.whole (Memref.whole main_v0) true false (stage0_8 0) (sem0_8 0) (Memref.isWhole_whole _) (hstage0_8 0)

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2x2048x64 : Shape := ⟨3, ![2, 2048, 64]⟩
abbrev S2x2048x2048 : Shape := ⟨3, ![2, 2048, 2048]⟩
abbrev S5x128x64 : Shape := ⟨3, ![5, 128, 64]⟩
abbrev S2048x64 : Shape := ⟨2, ![2048, 64]⟩
abbrev S2x2048x128 : Shape := ⟨3, ![2, 2048, 128]⟩
abbrev S1x128x64 : Shape := ⟨3, ![1, 128, 64]⟩
abbrev S128x64 : Shape := ⟨2, ![128, 64]⟩
abbrev S1x2048x64 : Shape := ⟨3, ![1, 2048, 64]⟩
abbrev S_ : Shape := ⟨0, ![]⟩

abbrev nBuf : Space → Nat
  | .hbm => 113
  | .vmem => 0
  | .smem => 0
  | _ => 0

abbrev bufTy : (tb : Table) → Fin (tcTables nBuf tb) → BufTy
  | .hbm, ⟨0, _⟩ => ⟨S2x2048x64, .f32⟩
  | .hbm, ⟨1, _⟩ => ⟨S2x2048x2048, .f32⟩
  | .hbm, ⟨2, _⟩ => ⟨S2x2048x64, .f32⟩
  | .hbm, ⟨3, _⟩ => ⟨S5x128x64, .f32⟩
  | .hbm, ⟨4, _⟩ => ⟨S5x128x64, .f32⟩
  | .hbm, ⟨5, _⟩ => ⟨S5x128x64, .f32⟩
  | .hbm, ⟨6, _⟩ => ⟨S2048x64, .f32⟩
  | .hbm, ⟨7, _⟩ => ⟨S2048x64, .f32⟩
  | .hbm, ⟨8, _⟩ => ⟨S2048x64, .f32⟩
  | .hbm, ⟨9, _⟩ => ⟨S2x2048x128, .f32⟩
  | .hbm, ⟨10, _⟩ => ⟨S1x128x64, .f32⟩
  | .hbm, ⟨11, _⟩ => ⟨S128x64, .f32⟩
  | .hbm, ⟨12, _⟩ => ⟨S2x2048x64, .f32⟩
  | .hbm, ⟨13, _⟩ => ⟨S2x2048x128, .f32⟩
  | .hbm, ⟨14, _⟩ => ⟨S1x128x64, .f32⟩
  | .hbm, ⟨15, _⟩ => ⟨S128x64, .f32⟩
  | .hbm, ⟨16, _⟩ => ⟨S2x2048x64, .f32⟩
  | .hbm, ⟨17, _⟩ => ⟨S2x2048x64, .f32⟩
  | .hbm, ⟨18, _⟩ => ⟨S2x2048x128, .f32⟩
  | .hbm, ⟨19, _⟩ => ⟨S1x128x64, .f32⟩
  | .hbm, ⟨20, _⟩ => ⟨S128x64, .f32⟩
  | .hbm, ⟨21, _⟩ => ⟨S2x2048x64, .f32⟩
  | .hbm, ⟨22, _⟩ => ⟨S2x2048x64, .f32⟩
  | .hbm, ⟨23, _⟩ => ⟨S2x2048x128, .f32⟩
  | .hbm, ⟨24, _⟩ => ⟨S1x128x64, .f32⟩
  | .hbm, ⟨25, _⟩ => ⟨S128x64, .f32⟩
  | .hbm, ⟨26, _⟩ => ⟨S2x2048x64, .f32⟩
  | .hbm, ⟨27, _⟩ => ⟨S2x2048x64, .f32⟩
  | .hbm, ⟨28, _⟩ => ⟨S2x2048x128, .f32⟩
  | .hbm, ⟨29, _⟩ => ⟨S1x128x64, .f32⟩
  | .hbm, ⟨30, _⟩ => ⟨S128x64, .f32⟩
  | .hbm, ⟨31, _⟩ => ⟨S2x2048x64, .f32⟩
  | .hbm, ⟨32, _⟩ => ⟨S2x2048x64, .f32⟩
  | .hbm, ⟨33, _⟩ => ⟨S1x2048x64, .f32⟩
  | .hbm, ⟨34, _⟩ => ⟨S2x2048x64, .f32⟩
  | .hbm, ⟨35, _⟩ => ⟨S2x2048x64, .f32⟩
  | .hbm, ⟨36, _⟩ => ⟨S2x2048x64, .f32⟩
  | .hbm, ⟨37, _⟩ => ⟨S2x2048x64, .f32⟩
  | .hbm, ⟨38, _⟩ => ⟨S_, .f32⟩
  | .hbm, ⟨39, _⟩ => ⟨S2x2048x64, .f32⟩
  | .hbm, ⟨40, _⟩ => ⟨S2x2048x64, .f32⟩
  | .hbm, ⟨41, _⟩ => ⟨S_, .f32⟩
  | .hbm, ⟨42, _⟩ => ⟨S2x2048x64, .f32⟩
  | .hbm, ⟨43, _⟩ => ⟨S2x2048x64, .f32⟩
  | .hbm, ⟨44, _⟩ => ⟨S1x128x64, .f32⟩
  | .hbm, ⟨45, _⟩ => ⟨S128x64, .f32⟩
  | .hbm, ⟨46, _⟩ => ⟨S2x2048x64, .f32⟩
  | .hbm, ⟨47, _⟩ => ⟨S2x2048x128, .f32⟩
  | .hbm, ⟨48, _⟩ => ⟨S1x128x64, .f32⟩
  | .hbm, ⟨49, _⟩ => ⟨S128x64, .f32⟩
  | .hbm, ⟨50, _⟩ => ⟨S2x2048x64, .f32⟩
  | .hbm, ⟨51, _⟩ => ⟨S2x2048x64, .f32⟩
  | .hbm, ⟨52, _⟩ => ⟨S2x2048x128, .f32⟩
  | .hbm, ⟨53, _⟩ => ⟨S1x128x64, .f32⟩
  | .hbm, ⟨54, _⟩ => ⟨S128x64, .f32⟩
  | .hbm, ⟨55, _⟩ => ⟨S2x2048x64, .f32⟩
  | .hbm, ⟨56, _⟩ => ⟨S2x2048x64, .f32⟩
  | .hbm, ⟨57, _⟩ => ⟨S2x2048x128, .f32⟩
  | .hbm, ⟨58, _⟩ => ⟨S1x128x64, .f32⟩
  | .hbm, ⟨59, _⟩ => ⟨S128x64, .f32⟩
  | .hbm, ⟨60, _⟩ => ⟨S2x2048x64, .f32⟩
  | .hbm, ⟨61, _⟩ => ⟨S2x2048x64, .f32⟩
  | .hbm, ⟨62, _⟩ => ⟨S2x2048x128, .f32⟩
  | .hbm, ⟨63, _⟩ => ⟨S1x128x64, .f32⟩
  | .hbm, ⟨64, _⟩ => ⟨S128x64, .f32⟩
  | .hbm, ⟨65, _⟩ => ⟨S2x2048x64, .f32⟩
  | .hbm, ⟨66, _⟩ => ⟨S2x2048x64, .f32⟩
  | .hbm, ⟨67, _⟩ => ⟨S1x2048x64, .f32⟩
  | .hbm, ⟨68, _⟩ => ⟨S2x2048x64, .f32⟩
  | .hbm, ⟨69, _⟩ => ⟨S2x2048x64, .f32⟩
  | .hbm, ⟨70, _⟩ => ⟨S2x2048x64, .f32⟩
  | .hbm, ⟨71, _⟩ => ⟨S2x2048x64, .f32⟩
  | .hbm, ⟨72, _⟩ => ⟨S_, .f32⟩
  | .hbm, ⟨73, _⟩ => ⟨S2x2048x64, .f32⟩
  | .hbm, ⟨74, _⟩ => ⟨S2x2048x64, .f32⟩
  | .hbm, ⟨75, _⟩ => ⟨S_, .f32⟩
  | .hbm, ⟨76, _⟩ => ⟨S2x2048x64, .f32⟩
  | .hbm, ⟨77, _⟩ => ⟨S2x2048x64, .f32⟩
  | .hbm, ⟨78, _⟩ => ⟨S2x2048x64, .f32⟩
  | .hbm, ⟨79, _⟩ => ⟨S2x2048x128, .f32⟩
  | .hbm, ⟨80, _⟩ => ⟨S1x128x64, .f32⟩
  | .hbm, ⟨81, _⟩ => ⟨S128x64, .f32⟩
  | .hbm, ⟨82, _⟩ => ⟨S2x2048x64, .f32⟩
  | .hbm, ⟨83, _⟩ => ⟨S2x2048x128, .f32⟩
  | .hbm, ⟨84, _⟩ => ⟨S1x128x64, .f32⟩
  | .hbm, ⟨85, _⟩ => ⟨S128x64, .f32⟩
  | .hbm, ⟨86, _⟩ => ⟨S2x2048x64, .f32⟩
  | .hbm, ⟨87, _⟩ => ⟨S2x2048x64, .f32⟩
  | .hbm, ⟨88, _⟩ => ⟨S2x2048x128, .f32⟩
  | .hbm, ⟨89, _⟩ => ⟨S1x128x64, .f32⟩
  | .hbm, ⟨90, _⟩ => ⟨S128x64, .f32⟩
  | .hbm, ⟨91, _⟩ => ⟨S2x2048x64, .f32⟩
  | .hbm, ⟨92, _⟩ => ⟨S2x2048x64, .f32⟩
  | .hbm, ⟨93, _⟩ => ⟨S2x2048x128, .f32⟩
  | .hbm, ⟨94, _⟩ => ⟨S1x128x64, .f32⟩
  | .hbm, ⟨95, _⟩ => ⟨S128x64, .f32⟩
  | .hbm, ⟨96, _⟩ => ⟨S2x2048x64, .f32⟩
  | .hbm, ⟨97, _⟩ => ⟨S2x2048x64, .f32⟩
  | .hbm, ⟨98, _⟩ => ⟨S2x2048x128, .f32⟩
  | .hbm, ⟨99, _⟩ => ⟨S1x128x64, .f32⟩
  | .hbm, ⟨100, _⟩ => ⟨S128x64, .f32⟩
  | .hbm, ⟨101, _⟩ => ⟨S2x2048x64, .f32⟩
  | .hbm, ⟨102, _⟩ => ⟨S2x2048x64, .f32⟩
  | .hbm, ⟨103, _⟩ => ⟨S1x2048x64, .f32⟩
  | .hbm, ⟨104, _⟩ => ⟨S2x2048x64, .f32⟩
  | .hbm, ⟨105, _⟩ => ⟨S2x2048x64, .f32⟩
  | .hbm, ⟨106, _⟩ => ⟨S2x2048x64, .f32⟩
  | .hbm, ⟨107, _⟩ => ⟨S2x2048x64, .f32⟩
  | .hbm, ⟨108, _⟩ => ⟨S_, .f32⟩
  | .hbm, ⟨109, _⟩ => ⟨S2x2048x64, .f32⟩
  | .hbm, ⟨110, _⟩ => ⟨S2x2048x64, .f32⟩
  | .hbm, ⟨111, _⟩ => ⟨S2x2048x64, .f32⟩
  | .hbm, ⟨112, _⟩ => ⟨S2x2048x64, .f32⟩
  | _, _ => ⟨S2x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst : Ref sig .tc := ⟨.hbm, 38, rfl⟩
abbrev main_v29 : Ref sig .tc := ⟨.hbm, 39, rfl⟩
abbrev main_v30 : Ref sig .tc := ⟨.hbm, 40, rfl⟩
abbrev main_cst_0 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_1 : Ref sig .tc := ⟨.hbm, 72, rfl⟩
abbrev main_v61 : Ref sig .tc := ⟨.hbm, 73, rfl⟩
abbrev main_v62 : Ref sig .tc := ⟨.hbm, 74, rfl⟩
abbrev main_cst_2 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_cst_3 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩

abbrev nD : Nat := 1
abbrev τ : Topo := Topo.v7x

variable {F : FTy → Type} [FloatOps F]

class Facts₀ : Prop where
  concatenates_S2x2048x64_S2x2048x64_S2x2048x128_d2 : Shape.Concatenates [S2x2048x64, S2x2048x64] S2x2048x128 2
  slices_S5x128x64_S1x128x64_0_0_0 : S5x128x64.Slices ![0, 0, 0] S1x128x64
  shapeCasts_S1x128x64_S128x64 : S1x128x64.ShapeCasts S128x64
  slices_S5x128x64_S1x128x64_1_0_0 : S5x128x64.Slices ![1, 0, 0] S1x128x64
  slices_S5x128x64_S1x128x64_2_0_0 : S5x128x64.Slices ![2, 0, 0] S1x128x64
  slices_S5x128x64_S1x128x64_3_0_0 : S5x128x64.Slices ![3, 0, 0] S1x128x64
  slices_S5x128x64_S1x128x64_4_0_0 : S5x128x64.Slices ![4, 0, 0] S1x128x64
  bcast_S2048x64_S1x2048x64_1_2 : S2048x64.BroadcastsInDim S1x2048x64 (![1, 2] : Fin 2 → Fin S1x2048x64.rank)
  bcast_S1x2048x64_S2x2048x64_0_1_2 : S1x2048x64.BroadcastsInDim S2x2048x64 (![0, 1, 2] : Fin 3 → Fin S2x2048x64.rank)
  bcast_S_S2x2048x64 : S_.BroadcastsInDim S2x2048x64 (![] : Fin 0 → Fin S2x2048x64.rank)
  dot_S2x2048x128_S128x64_S2x2048x64_2_0_01_1_n_n_wf : DotDims.WF S2x2048x128 S128x64 S2x2048x64 [2] [0] [0, 1] [1] [] []
  dot_S2x2048x2048_S2x2048x128_S2x2048x128_2_1_1_2_0_0_wf : DotDims.WF S2x2048x2048 S2x2048x128 S2x2048x128 [2] [1] [1] [2] [0] [0]

variable [Facts₀]

def dot_S2x2048x128_S128x64_S2x2048x64_2_0_01_1_n_n : DotDims S2x2048x128 S128x64 S2x2048x64 where
  lhsContracting := [2]
  rhsContracting := [0]
  lhsNonContracting := [0, 1]
  rhsNonContracting := [1]
  lhsBatch := []
  rhsBatch := []
  wf := dot_S2x2048x128_S128x64_S2x2048x64_2_0_01_1_n_n_wf
def dot_S2x2048x2048_S2x2048x128_S2x2048x128_2_1_1_2_0_0 : DotDims S2x2048x2048 S2x2048x128 S2x2048x128 where
  lhsContracting := [2]
  rhsContracting := [1]
  lhsNonContracting := [1]
  rhsNonContracting := [2]
  lhsBatch := [0]
  rhsBatch := [0]
  wf := dot_S2x2048x2048_S2x2048x128_S2x2048x128_2_1_1_2_0_0_wf

class Facts : Prop extends Facts₀ where

variable [Facts]
-- ==== Proof.KernelArray.lean ====
/-
  The kernel's result array as one function of the arrays its call is launched with.

  The call has no grid: its one point stages every operand WHOLE, so each input window's block at that point is the
  operand array itself (coordinate a of a block's index is 0·size + 1·(the coordinate inside the block)), the point's
  block of the output covers the whole result, and what the point writes back is the body's two stores — one per batch
  element — laid over the result. Hence the result array after the run is the body's output function (`Gen.out0_8`)
  of the operand arrays as the region finds them.
-/
import proofs.«167347_g42064909697411_cont_8to1_b_244_7_alg».proof.Proof.Gen.KernelIdeal.Value
import Idealize.ShloMosaic.PureOps.Ideal

noncomputable section

namespace Cert.KernelIdeal.Whole

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## Each input window's block at the one point is its array -/

theorem block_graph (c : Dev nD) (t : Fin cfg0.N) : (iblk m c 0 t : S2x2048x2048.Idx → Elt Ideal .bf16) = V m c main_call0_v0 := by
  funext j
  show V m c main_call0_v0 (((cfg0.win 0).blk t).view.emb j) = V m c main_call0_v0 j
  refine congrArg (V m c main_call0_v0) (funext fun a => Fin.ext ?_)
  match a with
  | ⟨0, _⟩ => show 0 * 2 + 1 * (j 0).val = (j 0).val; omega
  | ⟨1, _⟩ => show 0 * 2048 + 1 * (j 1).val = (j 1).val; omega
  | ⟨2, _⟩ => show 0 * 2048 + 1 * (j 2).val = (j 2).val; omega

theorem block_features (c : Dev nD) (t : Fin cfg0.N) : (iblk m c 1 t : S2x2048x64.Idx → Elt Ideal .f32) = V m c main_arg0 := by
  funext j
  show V m c main_arg0 (((cfg0.win 1).blk t).view.emb j) = V m c main_arg0 j
  refine congrArg (V m c main_arg0) (funext fun a => Fin.ext ?_)
  match a with
  | ⟨0, _⟩ => show 0 * 2 + 1 * (j 0).val = (j 0).val; omega
  | ⟨1, _⟩ => show 0 * 2048 + 1 * (j 1).val = (j 1).val; omega
  | ⟨2, _⟩ => show 0 * 64 + 1 * (j 2).val = (j 2).val; omega

theorem block_state (c : Dev nD) (t : Fin cfg0.N) : (iblk m c 2 t : S2x2048x64.Idx → Elt Ideal .f32) = V m c main_arg2 := by
  funext j
  show V m c main_arg2 (((cfg0.win 2).blk t).view.emb j) = V m c main_arg2 j
  refine congrArg (V m c main_arg2) (funext fun a => Fin.ext ?_)
  match a with
  | ⟨0, _⟩ => show 0 * 2 + 1 * (j 0).val = (j 0).val; omega
  | ⟨1, _⟩ => show 0 * 2048 + 1 * (j 1).val = (j 1).val; omega
  | ⟨2, _⟩ => show 0 * 64 + 1 * (j 2).val = (j 2).val; omega

theorem block_gateWeights (c : Dev nD) (t : Fin cfg0.N) : (iblk m c 3 t : S128x640.Idx → Elt Ideal .f32) = V m c main_call0_v3 := by
  funext j
  show V m c main_call0_v3 (((cfg0.win 3).blk t).view.emb j) = V m c main_call0_v3 j
  refine congrArg (V m c main_call0_v3) (funext fun a => Fin.ext ?_)
  match a with
  | ⟨0, _⟩ => show 0 * 128 + 1 * (j 0).val = (j 0).val; omega
  | ⟨1, _⟩ => show 0 * 640 + 1 * (j 1).val = (j 1).val; omega

theorem block_candWeights (c : Dev nD) (t : Fin cfg0.N) : (iblk m c 4 t : S128x320.Idx → Elt Ideal .f32) = V m c main_call0_v5 := by
  funext j
  show V m c main_call0_v5 (((cfg0.win 4).blk t).view.emb j) = V m c main_call0_v5 j
  refine congrArg (V m c main_call0_v5) (funext fun a => Fin.ext ?_)
  match a with
  | ⟨0, _⟩ => show 0 * 128 + 1 * (j 0).val = (j 0).val; omega
  | ⟨1, _⟩ => show 0 * 320 + 1 * (j 1).val = (j 1).val; omega

theorem block_resetBias (c : Dev nD) (t : Fin cfg0.N) : (iblk m c 5 t : S2048x64.Idx → Elt Ideal .f32) = V m c main_arg6 := by
  funext j
  show V m c main_arg6 (((cfg0.win 5).blk t).view.emb j) = V m c main_arg6 j
  refine congrArg (V m c main_arg6) (funext fun a => Fin.ext ?_)
  match a with
  | ⟨0, _⟩ => show 0 * 2048 + 1 * (j 0).val = (j 0).val; omega
  | ⟨1, _⟩ => show 0 * 64 + 1 * (j 1).val = (j 1).val; omega

theorem block_updateBias (c : Dev nD) (t : Fin cfg0.N) : (iblk m c 6 t : S2048x64.Idx → Elt Ideal .f32) = V m c main_arg7 := by
  funext j
  show V m c main_arg7 (((cfg0.win 6).blk t).view.emb j) = V m c main_arg7 j
  refine congrArg (V m c main_arg7) (funext fun a => Fin.ext ?_)
  match a with
  | ⟨0, _⟩ => show 0 * 2048 + 1 * (j 0).val = (j 0).val; omega
  | ⟨1, _⟩ => show 0 * 64 + 1 * (j 1).val = (j 1).val; omega

theorem block_candBias (c : Dev nD) (t : Fin cfg0.N) : (iblk m c 7 t : S2048x64.Idx → Elt Ideal .f32) = V m c main_arg8 := by
  funext j
  show V m c main_arg8 (((cfg0.win 7).blk t).view.emb j) = V m c main_arg8 j
  refine congrArg (V m c main_arg8) (funext fun a => Fin.ext ?_)
  match a with
  | ⟨0, _⟩ => show 0 * 2048 + 1 * (j 0).val = (j 0).val; omega
  | ⟨1, _⟩ => show 0 * 64 + 1 * (j 1).val = (j 1).val; omega

/-! ## The result array -/

/-- The body's output function of the operand arrays as the region finds them. -/
def result (c : Dev nD) : S2x2048x64.Idx → Elt Ideal .f32 :=
  out0_8 (F := Ideal) (V m c main_call0_v0) (V m c main_arg0) (V m c main_arg2) (V m c main_call0_v3) (V m c main_call0_v5)
    (V m c main_arg6) (V m c main_arg7) (V m c main_arg8)

/-- Reading any array through the output's (whole) block at a point gives the array back: what the point writes back of
    a buffer holding `G` is `G`. -/
theorem cut_eq_read (t : Fin cfg0.N) (G : S2x2048x64.Idx → Elt Ideal .f32) :
    (cfg0.win 8).cut (grid0.coords t) G = ((cfg0.win 8).blk t).view.read (Elt Ideal) G := by
  funext j
  show G j = G (((cfg0.win 8).blk t).view.emb j)
  refine congrArg G (funext fun a => Fin.ext ?_)
  match a with
  | ⟨0, _⟩ => show (j 0).val = 0 * 2 + 1 * (j 0).val; omega
  | ⟨1, _⟩ => show (j 1).val = 0 * 2048 + 1 * (j 1).val; omega
  | ⟨2, _⟩ => show (j 2).val = 0 * 64 + 1 * (j 2).val; omega

/-- What the one point writes back is the whole of `result`, read through the output's (whole) block. -/
theorem flushed_result (c : Dev nD) (t : Fin cfg0.N) :
    (dats m 0 c).flushed 8 t = ((cfg0.win 8).blk t).view.read (Elt Ideal) (result m c) := by
  rw [Value.flushed8, block_graph m c t, block_features m c t, block_state m c t, block_gateWeights m c t,
    block_candWeights m c t, block_resetBias m c t, block_updateBias m c t, block_candBias m c t]
  exact cut_eq_read t (result m c)

/-- The call's one grid point. -/
def point : Fin cfg0.N := ⟨0, by decide⟩

/-- Every index of the result lies in the one point's block. -/
theorem covered (i : S2x2048x64.Idx) : ∃ t : Fin cfg0.N, (cfg0.win 8).flush t = true ∧ i ∈ ((cfg0.win 8).blk t).view.set := by
  refine ⟨point, rfl, ?_⟩
  show i ∈ ((View.whole main_v0).slice (win0_8.rect point)).set
  rw [View.set_slice_whole, Rect.mem_set_unit]
  intro a
  match a with
  | ⟨0, _⟩ => show 0 * 2 ≤ (i 0).val ∧ (i 0).val < 0 * 2 + 2; have h0 : (i 0).val < 2 := (i 0).isLt; omega
  | ⟨1, _⟩ => show 0 * 2048 ≤ (i 1).val ∧ (i 1).val < 0 * 2048 + 2048; have h1 : (i 1).val < 2048 := (i 1).isLt; omega
  | ⟨2, _⟩ => show 0 * 64 ≤ (i 2).val ∧ (i 2).val < 0 * 64 + 64; have h2 : (i 2).val < 64 := (i 2).isLt; omega

/-- The result array after the run. -/
theorem final (c : Dev nD) : (dats m 0 c).arrAt 8 cfg0.N = result m c :=
  (dats m 0 c).arrAt_eq_of_cover 8 _ (fun t _ => flushed_result m c t) (covered)

end Cert.KernelIdeal.Whole

end
-- ==== Proof.DiffusionAlgebra.lean ====
/-
  Graph diffusion as matrix algebra over the extended reals.

  A diffusion convolution of five hops is  Z·W₀ + (A·Z)·W₁ + (A·A·Z)·W₂ + (A·A·A·Z)·W₃ + (A·A·A·A·Z)·W₄  ("powers"):
  the features Z are pushed along the graph A once per hop and each hop has its own weights. The same sum
  factored by Horner's rule is  A·(A·(A·(A·(Z·W₄) + Z·W₃) + Z·W₂) + Z·W₁) + Z·W₀ : one product with A per hop, each
  on a matrix already projected to the output width. The two agree by associativity of the matrix product and its
  distributivity over sums. On the extended reals a product does not distribute over a sum at the infinities, so
  the law is proved for matrices whose entries are real numbers (`emb`), where it is Mathlib's matrix algebra.

  A matrix here is a plain function of a row and a column; `emul` is the entrywise sum of products and `eadd` the
  entrywise sum, with no algebraic structure assumed of them.
-/
import Mathlib.Data.EReal.Basic
import Mathlib.Data.Matrix.Mul
import Mathlib.Tactic.Abel

noncomputable section

namespace Cert.Diffusion

/-- A matrix of extended reals: an entry per row and column. -/
abbrev EMat (a b : ℕ) := Fin a → Fin b → EReal

variable {a b c : ℕ}

/-- The matrix product, entry by entry: the sum over the inner index of the products. -/
def emul (A : EMat a b) (B : EMat b c) : EMat a c := fun i j => ∑ k, A i k * B k j

/-- The entrywise sum. -/
def eadd (A B : EMat a b) : EMat a b := fun i j => A i j + B i j

/-- A real matrix read as a matrix of extended reals. -/
def emb (M : Matrix (Fin a) (Fin b) ℝ) : EMat a b := fun i j => ((M i j : ℝ) : EReal)

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert x s hx ih => rw [Finset.sum_insert hx, Finset.sum_insert hx, EReal.coe_add, ih]

/-- On real entries the entrywise product-sum is the matrix product. -/
theorem emul_emb (A : Matrix (Fin a) (Fin b) ℝ) (B : Matrix (Fin b) (Fin c) ℝ) :
    emul (emb A) (emb B) = emb (A * B) := by
  funext i j
  simp only [emul, emb, Matrix.mul_apply, coe_sum, EReal.coe_mul]

/-- On real entries the entrywise sum is the matrix sum. -/
theorem eadd_emb (A B : Matrix (Fin a) (Fin b) ℝ) : eadd (emb A) (emb B) = emb (A + B) := by
  funext i j
  simp only [eadd, emb, Matrix.add_apply, EReal.coe_add]

variable {n f h : ℕ}

/-- Five hops by Horner's rule: one product with `A` per hop, on matrices of the output width. -/
def horner (A : EMat n n) (Z : EMat n f) (W : Fin 5 → EMat f h) : EMat n h :=
  eadd (emul A (eadd (emul A (eadd (emul A (eadd (emul A (emul Z (W 4))) (emul Z (W 3)))) (emul Z (W 2))))
    (emul Z (W 1)))) (emul Z (W 0))

/-- Five hops as the sum over the hops of (the features pushed k times along the graph) times the hop's weights. -/
def powers (A : EMat n n) (Z : EMat n f) (W : Fin 5 → EMat f h) : EMat n h :=
  eadd (eadd (eadd (eadd (emul Z (W 0)) (emul (emul A Z) (W 1))) (emul (emul A (emul A Z)) (W 2)))
    (emul (emul A (emul A (emul A Z))) (W 3))) (emul (emul A (emul A (emul A (emul A Z)))) (W 4))

/-- Horner's rule for five hops, over the reals: associativity of the product and distributivity over the sum. -/
theorem horner_real (A : Matrix (Fin n) (Fin n) ℝ) (Z : Matrix (Fin n) (Fin f) ℝ) (W0 W1 W2 W3 W4 : Matrix (Fin f) (Fin h) ℝ) :
    A * (A * (A * (A * (Z * W4) + Z * W3) + Z * W2) + Z * W1) + Z * W0
      = Z * W0 + A * Z * W1 + A * (A * Z) * W2 + A * (A * (A * Z)) * W3 + A * (A * (A * (A * Z))) * W4 := by
  simp only [Matrix.mul_add, Matrix.mul_assoc]
  abel

/-- Horner's form and the sum over the hops agree on matrices of real entries. -/
theorem horner_eq_powers (A : Matrix (Fin n) (Fin n) ℝ) (Z : Matrix (Fin n) (Fin f) ℝ) (W : Fin 5 → Matrix (Fin f) (Fin h) ℝ) :
    horner (emb A) (emb Z) (fun k => emb (W k)) = powers (emb A) (emb Z) (fun k => emb (W k)) := by
  unfold horner powers
  simp only [emul_emb, eadd_emb]
  exact congrArg emb (horner_real A Z (W 0) (W 1) (W 2) (W 3) (W 4))

/-- The product reads a column of its right factor only: taking columns of the weights first, or of the result. -/
theorem emul_cols {c' : ℕ} (A : EMat a b) (B : EMat b c) (σ : Fin c' → Fin c) :
    (fun i j => emul A B i (σ j)) = emul A (fun k j => B k (σ j)) := rfl

theorem eadd_cols {b' : ℕ} (A B : EMat a b) (σ : Fin b' → Fin b) :
    (fun i j => eadd A B i (σ j)) = eadd (fun i j => A i (σ j)) (fun i j => B i (σ j)) := rfl

/-- The sum over the hops, read at some columns, is the sum over the hops with the weights' columns taken first. -/
theorem powers_cols {h' : ℕ} (A : EMat n n) (Z : EMat n f) (W : Fin 5 → EMat f h) (σ : Fin h' → Fin h) :
    (fun i j => powers A Z W i (σ j)) = powers A Z (fun k r j => W k r (σ j)) := rfl

/-! ## Matrices of real entries -/

/-- Every entry is a real number (neither infinity). -/
def IsReal (M : EMat a b) : Prop := ∀ i j, ∃ r : ℝ, M i j = ((r : ℝ) : EReal)

theorem isReal_emb (R : Matrix (Fin a) (Fin b) ℝ) : IsReal (emb R) := fun i j => ⟨R i j, rfl⟩

/-- A matrix of real entries is a real matrix, read entry by entry. -/
theorem IsReal.exists_emb {M : EMat a b} (hM : IsReal M) : ∃ R : Matrix (Fin a) (Fin b) ℝ, M = emb R := by
  choose R hR using hM
  exact ⟨Matrix.of R, funext fun i => funext fun j => hR i j⟩

theorem IsReal.emul {A : EMat a b} {B : EMat b c} (hA : IsReal A) (hB : IsReal B) : IsReal (emul A B) := by
  obtain ⟨A', rfl⟩ := hA.exists_emb
  obtain ⟨B', rfl⟩ := hB.exists_emb
  rw [emul_emb]
  exact isReal_emb _

theorem IsReal.eadd {A B : EMat a b} (hA : IsReal A) (hB : IsReal B) : IsReal (eadd A B) := by
  obtain ⟨A', rfl⟩ := hA.exists_emb
  obtain ⟨B', rfl⟩ := hB.exists_emb
  rw [eadd_emb]
  exact isReal_emb _

/-- The sum over the hops of real matrices has real entries. -/
theorem IsReal.powers {A : EMat n n} {Z : EMat n f} {W : Fin 5 → EMat f h} (hA : IsReal A) (hZ : IsReal Z)
    (hW : ∀ k, IsReal (W k)) : IsReal (powers A Z W) := by
  have h1 := hA.emul hZ
  have h2 := hA.emul h1
  have h3 := hA.emul h2
  have h4 := hA.emul h3
  exact ((((hZ.emul (hW 0)).eadd (h1.emul (hW 1))).eadd (h2.emul (hW 2))).eadd (h3.emul (hW 3))).eadd (h4.emul (hW 4))

/-- Horner's form is the sum over the hops whenever graph, features and weights all have real entries. -/
theorem horner_eq_powers_of_real {A : EMat n n} {Z : EMat n f} {W : Fin 5 → EMat f h} (hA : IsReal A) (hZ : IsReal Z)
    (hW : ∀ k, IsReal (W k)) : horner A Z W = powers A Z W := by
  obtain ⟨A', rfl⟩ := hA.exists_emb
  obtain ⟨Z', rfl⟩ := hZ.exists_emb
  choose W' hW' using fun k => (hW k).exists_emb
  obtain rfl : W = fun k => emb (W' k) := funext hW'
  exact horner_eq_powers A' Z' W'

end Cert.Diffusion

end
-- ==== Proof.GruSpec.lean ====
/-
  The graph-diffusion GRU cell of one batch element, as a function of extended-real matrices, in its two arrangements.

  With XH = [X | H] (the input features beside the state), conv(Z, W) the five-hop diffusion convolution of Z along
  the graph A, and σ the logistic function:
      r = σ(conv(XH, W_r) + b_r),   u = σ(conv(XH, W_u) + b_u),
      c = tanh(conv([X | r ⊙ H], W_c) + b_c),   H' = u ⊙ H + (1 − u) ⊙ c.
  `gruPowers` takes each conv as the sum over the hops (`powers`). `gruHorner` takes it by Horner's rule (`horner`),
  and computes the reset and update gates' convolutions in ONE recursion whose weights are [W_r[k] | W_u[k]] side by
  side: column j of the result is r's pre-activation, column 64 + j is u's. A product with A, and a sum, act on each
  column by itself, so the packed recursion's columns are the two separate ones; and Horner's form is the sum over the
  hops once every entry is real (`horner_eq_powers_of_real`). The gates are real where their arguments are, which
  carries realness into the second convolution's features [X | r ⊙ H].
-/
import proofs.«167347_g42064909697411_cont_8to1_b_244_7_alg».proof.Proof.DiffusionAlgebra
import Idealize.ShloMosaic.PureOps.Ideal
import Idealize.ShloMosaic.Lib.ValueIdx

noncomputable section

namespace Cert.Diffusion

open Idealize.ShloMosaic Idealize.ShloMosaic.ValueIdx

variable {n : ℕ}

/-! ## Two blocks of 64 columns side by side -/

/-- [X | Y]: columns 0–63 are X's, columns 64–127 are Y's. -/
def hcat64 {m : ℕ} (X Y : EMat m 64) : EMat m 128 :=
  fun i j => if hj : j.val < 64 then X i ⟨j.val, hj⟩ else Y i ⟨j.val - 64, by omega⟩

/-- Column j of the left block. -/
def lo64 (j : Fin 64) : Fin 128 := ⟨j.val, by omega⟩
/-- Column j of the right block. -/
def hi64 (j : Fin 64) : Fin 128 := ⟨64 + j.val, by omega⟩

theorem hcat64_lo {m : ℕ} (X Y : EMat m 64) (i : Fin m) (j : Fin 64) : hcat64 X Y i (lo64 j) = X i j := by
  unfold hcat64 lo64
  rw [dif_pos (show (j.val) < 64 from j.isLt)]

theorem hcat64_hi {m : ℕ} (X Y : EMat m 64) (i : Fin m) (j : Fin 64) : hcat64 X Y i (hi64 j) = Y i j := by
  unfold hcat64 hi64
  rw [dif_neg (show ¬ (64 + j.val) < 64 by omega)]
  exact congrArg (Y i) (Fin.ext (by show 64 + j.val - 64 = j.val; omega))

theorem IsReal.hcat64 {m : ℕ} {X Y : EMat m 64} (hX : IsReal X) (hY : IsReal Y) : IsReal (hcat64 X Y) := by
  intro i j
  unfold Cert.Diffusion.hcat64
  by_cases hj : j.val < 64
  · rw [dif_pos hj]; exact hX i _
  · rw [dif_neg hj]; exact hY i _

/-! ## The cell -/

/-- The word of the constant one, as both programs print it. -/
abbrev oneWord : EReal := Ideal.ofBits .f32 0x3F800000#32

/-- A gate applied to the state: σ(P + B) ⊙ H, entry by entry. -/
def gated (P B H : EMat n 64) : EMat n 64 := fun i j => Ideal.logistic (P i j + B i j) * H i j

/-- The new state from the update gate's and the candidate's pre-activations. -/
def blend (Pu Bu H Pc Bc : EMat n 64) : EMat n 64 := fun i j =>
  Ideal.logistic (Pu i j + Bu i j) * H i j + (oneWord - Ideal.logistic (Pu i j + Bu i j)) * Ideal.tanh (Pc i j + Bc i j)

/-- The cell with every convolution the sum over the hops. -/
def gruPowers (A : EMat n n) (X H : EMat n 64) (Wr Wu Wc : Fin 5 → EMat 128 64) (br bu bc : EMat n 64) : EMat n 64 :=
  blend (powers A (hcat64 X H) Wu) bu H
    (powers A (hcat64 X (gated (powers A (hcat64 X H) Wr) br H)) Wc) bc

/-- The cell by Horner's rule, the two gates' convolutions in one recursion of 128 columns over packed weights
    `Wru k` (columns 0–63 the reset gate's, 64–127 the update gate's). -/
def gruHorner (A : EMat n n) (X H : EMat n 64) (Wru : Fin 5 → EMat 128 128) (Wc : Fin 5 → EMat 128 64) (br bu bc : EMat n 64) :
    EMat n 64 :=
  blend (fun i j => horner A (hcat64 X H) Wru i (hi64 j)) bu H
    (horner A (hcat64 X (gated (fun i j => horner A (hcat64 X H) Wru i (lo64 j)) br H)) Wc) bc

theorem IsReal.gated {P B H : EMat n 64} (hP : IsReal P) (hB : IsReal B) (hH : IsReal H) : IsReal (gated P B H) := by
  intro i j
  obtain ⟨p, hp⟩ := hP i j
  obtain ⟨b, hb⟩ := hB i j
  obtain ⟨x, hx⟩ := hH i j
  refine ⟨(1 + Real.exp (-(p + b)))⁻¹ * x, ?_⟩
  unfold Cert.Diffusion.gated
  rw [hp, hb, hx, ← EReal.coe_add, Ideal.logistic_coe, ← EReal.coe_mul]

/-- The two arrangements of the cell agree when the graph, the features, the state, the weights and the reset gate's
    bias have real entries. -/
theorem gruHorner_eq_gruPowers {A : EMat n n} {X H : EMat n 64} {Wr Wu Wc : Fin 5 → EMat 128 64} {br : EMat n 64}
    (bu bc : EMat n 64) (hA : IsReal A) (hX : IsReal X) (hH : IsReal H) (hWr : ∀ k, IsReal (Wr k)) (hWu : ∀ k, IsReal (Wu k))
    (hWc : ∀ k, IsReal (Wc k)) (hbr : IsReal br) :
    gruHorner A X H (fun k => hcat64 (Wr k) (Wu k)) Wc br bu bc = gruPowers A X H Wr Wu Wc br bu bc := by
  have hXH : IsReal (hcat64 X H) := hX.hcat64 hH
  have hP : horner A (hcat64 X H) (fun k => hcat64 (Wr k) (Wu k)) = powers A (hcat64 X H) (fun k => hcat64 (Wr k) (Wu k)) :=
    horner_eq_powers_of_real hA hXH (fun k => (hWr k).hcat64 (hWu k))
  have hlo : (fun i j => powers A (hcat64 X H) (fun k => hcat64 (Wr k) (Wu k)) i (lo64 j)) = powers A (hcat64 X H) Wr := by
    rw [powers_cols]
    exact congrArg (powers A (hcat64 X H)) (funext fun k => funext fun r => funext fun j => hcat64_lo (Wr k) (Wu k) r j)
  have hhi : (fun i j => powers A (hcat64 X H) (fun k => hcat64 (Wr k) (Wu k)) i (hi64 j)) = powers A (hcat64 X H) Wu := by
    rw [powers_cols]
    exact congrArg (powers A (hcat64 X H)) (funext fun k => funext fun r => funext fun j => hcat64_hi (Wr k) (Wu k) r j)
  have hr : IsReal (gated (powers A (hcat64 X H) Wr) br H) := (IsReal.powers hA hXH hWr).gated hbr hH
  have hQ : horner A (hcat64 X (gated (powers A (hcat64 X H) Wr) br H)) Wc
      = powers A (hcat64 X (gated (powers A (hcat64 X H) Wr) br H)) Wc :=
    horner_eq_powers_of_real hA (hX.hcat64 hr) hWc
  unfold gruHorner gruPowers
  rw [hP, hlo, hhi, hQ]

/-! ## Arrays read as matrices -/

/-- Batch element `b` of an array of shape [2, n, f]. -/
def batch {m f : ℕ} (V : (⟨3, ![2, m, f]⟩ : Shape).Idx → EReal) (b : Fin 2) : EMat m f := fun i j => V (ix3 b i j)

/-- The five hops' weight matrices out of an array of shape [5, 128, 64]. -/
def hops (W : (⟨3, ![5, 128, 64]⟩ : Shape).Idx → EReal) : Fin 5 → EMat 128 64 := fun k r j => W (ix3 k r j)

/-- An array of shape [a, b] as a matrix. -/
def plain {a b : ℕ} (B : (⟨2, ![a, b]⟩ : Shape).Idx → EReal) : EMat a b := fun i j => B (ix2 i j)

/-- Hop `k`'s 128 columns of a weight array of shape [128, 640] whose columns run hop by hop. -/
def packed128 (W : (⟨2, ![128, 640]⟩ : Shape).Idx → EReal) : Fin 5 → EMat 128 128 :=
  fun k r j => W (ix2 r ⟨128 * k.val + j.val, by have := k.isLt; have := j.isLt; omega⟩)

/-- Hop `k`'s 64 columns of a weight array of shape [128, 320] whose columns run hop by hop. -/
def packed64 (W : (⟨2, ![128, 320]⟩ : Shape).Idx → EReal) : Fin 5 → EMat 128 64 :=
  fun k r j => W (ix2 r ⟨64 * k.val + j.val, by have := k.isLt; have := j.isLt; omega⟩)

end Cert.Diffusion

end
-- ==== Proof.HostGlue.lean ====
/-
  The operands the host prepares for the call, as functions of the program's arguments.

  Before the call the host (i) copies the graph A to a narrower float format — at the exact instance a change of float
  format is the identity —, (ii) packs the reset and update gates' weights: [W_r[k] | W_u[k]] side by side on the last
  axis (shape [5, 128, 128]), the hop axis moved inside (shape [128, 5, 128]) and the last two axes flattened (shape
  [128, 640]): entry (r, 128·k + j) of the packed array is entry (k, r, j) of the side-by-side array, by row-major
  order of the flattening; and (iii) does the same with the candidate's weights: entry (r, 64·k + j) of the [128, 320]
  array is W_c[k, r, j].
-/
import proofs.«167347_g42064909697411_cont_8to1_b_244_7_alg».proof.Proof.Gen.KernelIdeal.Frame
import proofs.«167347_g42064909697411_cont_8to1_b_244_7_alg».proof.Proof.GruSpec
import Idealize.ShloMosaic.Lib.Pipeline.Value
import Idealize.ShloMosaic.Lib.StableHlo.Run

noncomputable section

namespace Cert.KernelIdeal.Operands

open Cert.KernelIdeal Cert.KernelIdeal.Gen Idealize.ShloMosaic Idealize.ShloMosaic.TcCoe Idealize.SL.Sem Idealize.ShloMosaic.ValueIdx
open Idealize.ShloMosaic.StableHlo Cert.Diffusion

variable (m : (ℓ : Loc nD τ sig) → Buf (Elt Ideal) ℓ)

/-! ## The operands as the host operations' terms -/

theorem graph_term (c : Dev nD) :
    @Eq (S2x2048x2048.Idx → EReal) (V m c main_call0_v0)
      (truncf (F := Ideal) .bf16 (m ((c : Thread nD τ).loc main_arg1) : FVec Ideal S2x2048x2048 .f32) bitsLt_bf16_f32) := by
  dsimp only [Gen.V, Gen.hostOps0]
  after_results
  rfl

theorem gateWeights_term (c : Dev nD) :
    @Eq (S128x640.Idx → EReal) (V m c main_call0_v3)
      (shapeCast S128x640 (transpose S128x5x128 [1, 0, 2] (concatenate S5x128x128 2
        [⟨S5x128x64, (m ((c : Thread nD τ).loc main_arg3) : FVec Ideal S5x128x64 .f32)⟩,
         ⟨S5x128x64, (m ((c : Thread nD τ).loc main_arg4) : FVec Ideal S5x128x64 .f32)⟩]
        concatenates_S5x128x64_S5x128x64_S5x128x128_d2) transposes_S5x128x128_S128x5x128_1_0_2) shapeCasts_S128x5x128_S128x640) := by
  dsimp only [Gen.V, Gen.hostOps0]
  after_results
  rfl

theorem candWeights_term (c : Dev nD) :
    @Eq (S128x320.Idx → EReal) (V m c main_call0_v5)
      (shapeCast S128x320 (transpose S128x5x64 [1, 0, 2] (m ((c : Thread nD τ).loc main_arg5) : FVec Ideal S5x128x64 .f32)
        transposes_S5x128x64_S128x5x64_1_0_2) shapeCasts_S128x5x64_S128x320) := by
  dsimp only [Gen.V, Gen.hostOps0]
  after_results
  rfl

/-! ## Read as matrices -/

/-- The graph's narrow copy is the graph, batch element by batch element. -/
theorem graph_batch (c : Dev nD) (b : Fin 2) :
    batch (V m c main_call0_v0 : S2x2048x2048.Idx → EReal) b = batch (m ((c : Thread nD τ).loc main_arg1) : S2x2048x2048.Idx → EReal) b := by
  rw [graph_term]
  rfl

/-- Hop k's 64 columns of the candidate's packed weights are W_c[k]. -/
theorem candWeights_packed (c : Dev nD) :
    packed64 (V m c main_call0_v5 : S128x320.Idx → EReal) = hops (m ((c : Thread nD τ).loc main_arg5) : S5x128x64.Idx → EReal) := by
  rw [candWeights_term]
  funext k r j
  have hk : k.val < 5 := k.isLt
  have hr : r.val < 128 := r.isLt
  have hj : j.val < 64 := j.isLt
  show shapeCast S128x320 _ shapeCasts_S128x5x64_S128x320 (ix2 r ⟨64 * k.val + j.val, by omega⟩) = _
  rw [shapeCast_apply _ shapeCasts_S128x5x64_S128x320 (ix2 r ⟨64 * k.val + j.val, by omega⟩) (ix3 r k j) (by
    rw [Shape.rowMajor_val_three, Shape.rowMajor_val_two]
    show (r.val * 5 + k.val) * 64 + j.val = r.val * 320 + (64 * k.val + j.val)
    omega)]
  exact transpose_apply [1, 0, 2] _ transposes_S5x128x64_S128x5x64_1_0_2 (ix3 r k j) (ix3 k r j) (fun b => match b with
    | ⟨0, _⟩ => rfl
    | ⟨1, _⟩ => rfl
    | ⟨2, _⟩ => rfl)

/-- Hop k's 128 columns of the gates' packed weights are [W_r[k] | W_u[k]]. -/
theorem gateWeights_packed (c : Dev nD) :
    packed128 (V m c main_call0_v3 : S128x640.Idx → EReal)
      = fun k => hcat64 (hops (m ((c : Thread nD τ).loc main_arg3) : S5x128x64.Idx → EReal) k)
          (hops (m ((c : Thread nD τ).loc main_arg4) : S5x128x64.Idx → EReal) k) := by
  rw [gateWeights_term]
  funext k r j
  have hk : k.val < 5 := k.isLt
  have hr : r.val < 128 := r.isLt
  have hj : j.val < 128 := j.isLt
  show shapeCast S128x640 _ shapeCasts_S128x5x128_S128x640 (ix2 r ⟨128 * k.val + j.val, by omega⟩) = _
  rw [shapeCast_apply _ shapeCasts_S128x5x128_S128x640 (ix2 r ⟨128 * k.val + j.val, by omega⟩) (ix3 r k j) (by
    rw [Shape.rowMajor_val_three, Shape.rowMajor_val_two]
    show (r.val * 5 + k.val) * 128 + j.val = r.val * 640 + (128 * k.val + j.val)
    omega)]
  rw [transpose_apply [1, 0, 2] _ transposes_S5x128x128_S128x5x128_1_0_2 (ix3 r k j) (ix3 k r j) (fun b => match b with
    | ⟨0, _⟩ => rfl
    | ⟨1, _⟩ => rfl
    | ⟨2, _⟩ => rfl)]
  unfold hcat64 hops
  by_cases h64 : j.val < 64
  · rw [dif_pos h64]
    exact concatenate_pair_apply_left 2 _ _ concatenates_S5x128x64_S5x128x64_S5x128x128_d2 (ix3 k r j) rfl (ix3 k r ⟨j.val, h64⟩)
      (fun b => match b with
        | ⟨0, _⟩ => rfl
        | ⟨1, _⟩ => rfl
        | ⟨2, _⟩ => rfl)
  · rw [dif_neg h64]
    exact concatenate_pair_apply_right 2 _ _ concatenates_S5x128x64_S5x128x64_S5x128x128_d2 (ix3 k r j) rfl rfl (ix3 k r ⟨j.val - 64, by omega⟩)
      (fun b hb => match b, hb with
        | ⟨0, _⟩, _ => rfl
        | ⟨1, _⟩, _ => rfl
        | ⟨2, _⟩, hb => absurd rfl hb)
      (by show j.val - 64 + 64 = j.val; omega)

end Cert.KernelIdeal.Operands

end
-- ==== Proof.KernelBody.lean ====
/-
  The kernel body of the graph-diffusion GRU cell, read at one entry of its output.

  The body treats the two batch elements one after the other, each by the same arithmetic. With X the features, H the
  state and A the graph of a batch element, it projects [X | H] once by all five hops' gate weights (a 2048 × 640
  matrix P whose columns 128k … 128k + 127 belong to hop k), runs Horner's rule A·(A·(A·(A·P₄ + P₃) + P₂) + P₁) + P₀
  on those column blocks, takes the logistic function of the left and right halves of the result plus the biases as
  the reset and update gates r and u, projects [X | r ⊙ H] by all hops' candidate weights (2048 × 320, 64 columns per
  hop), runs Horner's rule again, and stores u ⊙ H + (1 − u) ⊙ tanh(· + b). On the extended reals a product into a
  zero accumulator is the sum of products and a change of float format is the identity, so each stage is an equation
  between matrices of extended reals; a column block of a product is the product with that column block of the right
  factor, which turns the recursion on column blocks of P into Horner's rule over the hops' own weight matrices. No
  finiteness is needed: nothing is rearranged, only read.
-/
import proofs.«167347_g42064909697411_cont_8to1_b_244_7_alg».proof.Proof.Gen.KernelIdeal.Frame
import proofs.«167347_g42064909697411_cont_8to1_b_244_7_alg».proof.Proof.GruSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelBody

open Idealize.ShloMosaic Idealize.ShloMosaic.ValueIdx Cert.Diffusion Cert.KernelIdeal Cert.KernelIdeal.Gen

/-! ## Blocks and column ranges as matrices -/

/-- A block of shape [1, a, b] as a matrix. -/
def sq {a b : ℕ} (V : (⟨3, ![1, a, b]⟩ : Shape).Idx → EReal) : EMat a b := fun i j => V (ix3 (0 : Fin 1) i j)

/-- Columns o, …, o + m − 1 of a matrix. -/
def cols {a n : ℕ} (m o : ℕ) (h : o + m ≤ n) (M : EMat a n) : EMat a m :=
  fun i j => M i ⟨o + j.val, Nat.lt_of_lt_of_le (Nat.add_lt_add_left j.isLt o) h⟩

/-- Columns of a product are the product with the columns of the right factor. -/
theorem cols_emul {a b n : ℕ} (m o : ℕ) (h : o + m ≤ n) (Z : EMat a b) (W : EMat b n) :
    cols m o h (emul Z W) = emul Z (cols m o h W) := rfl

/-! ## Each vector operation of the body, read as an operation on matrices -/

theorem plain_dropUnit {a b : ℕ} (x : (⟨3, ![1, a, b]⟩ : Shape).Idx → EReal)
    (h : (⟨3, ![1, a, b]⟩ : Shape).ShapeCasts ⟨2, ![a, b]⟩) : plain (shapeCast ⟨2, ![a, b]⟩ x h) = sq x :=
  funext fun i => funext fun j => shapeCast_1ab_ab_apply x h i j

theorem plain_slice {n0 n1 m : ℕ} (o : ℕ) (X : (⟨2, ![n0, n1]⟩ : Shape).Idx → EReal)
    (h : (⟨2, ![n0, n1]⟩ : Shape).Slices ![0, o] ⟨2, ![n0, m]⟩) :
    plain (extractStridedSlice ⟨2, ![n0, m]⟩ ![0, o] X h) = cols m o (h.2 1) (plain X) :=
  funext fun i => funext fun j => slice2_axis1_eq o X h i j

theorem plain_addf {a b : ℕ} {φ : FTy} (x y : FVec Ideal ⟨2, ![a, b]⟩ φ) : plain (addf x y) = eadd (plain x) (plain y) := rfl

theorem plain_truncf {a b : ℕ} {φ ψ : FTy} (x : FVec Ideal ⟨2, ![a, b]⟩ φ) (h : ψ.bits < φ.bits) :
    plain (truncf ψ x h) = plain x := rfl

/-- Two blocks of 64 columns set side by side. -/
theorem plain_hcat (x y : FVec Ideal S2048x64 .f32) (h : Shape.Concatenates [S2048x64, S2048x64] S2048x128 1) :
    plain (concatenate S2048x128 1 [⟨S2048x64, x⟩, ⟨S2048x64, y⟩] h) = hcat64 (plain x) (plain y) := by
  funext i j
  unfold hcat64
  by_cases hj : j.val < 64
  · rw [dif_pos hj]
    exact concatenate_pair_apply_left 1 x y h (ix2 i j) rfl (ix2 i ⟨j.val, hj⟩)
      (fun b => match b with | ⟨0, _⟩ => rfl | ⟨1, _⟩ => rfl)
  · rw [dif_neg hj]
    exact concatenate_pair_apply_right 1 x y h (ix2 i j) rfl rfl (ix2 i ⟨j.val - 64, by omega⟩)
      (fun b hb => match b with | ⟨0, _⟩ => rfl | ⟨1, _⟩ => absurd rfl hb)
      (by show (j.val - 64) + 64 = j.val; omega)

/-- A gate applied to a state: the logistic function of a sum, times the state, entry by entry. -/
theorem plain_gate (R B S : FVec Ideal S2048x64 .f32) :
    plain (mulf (logistic (addf R B)) S) = gated (plain R) (plain B) (plain S) := rfl

/-! ## The four matrix products of the body

Each contracts the second axis of its left operand with the first of its right; the contraction index is one
coordinate, through which the sum is re-indexed. -/

theorem mm_feat640_l0 (i : S2048x640.Idx) (q : dot_S2048x128_S128x640_S2048x640_1_0_0_1_n_n.contr.Idx) : (dot_S2048x128_S128x640_S2048x640_1_0_0_1_n_n.lhsIdx i q 0).val = (i 0).val := by
  unfold DotDims.lhsIdx
  rw [dif_neg (show ¬(0 : Fin S2048x128.rank) ∈ dot_S2048x128_S128x640_S2048x640_1_0_0_1_n_n.lhsBatch by decide), dif_pos (show (0 : Fin S2048x128.rank) ∈ dot_S2048x128_S128x640_S2048x640_1_0_0_1_n_n.lhsNonContracting by decide)]
  rfl
theorem mm_feat640_l1 (i : S2048x640.Idx) (q : dot_S2048x128_S128x640_S2048x640_1_0_0_1_n_n.contr.Idx) : (dot_S2048x128_S128x640_S2048x640_1_0_0_1_n_n.lhsIdx i q 1).val = (q ⟨0, by decide⟩).val :=
  dot_S2048x128_S128x640_S2048x640_1_0_0_1_n_n.lhsIdx_val_of_single rfl i q
theorem mm_feat640_r0 (i : S2048x640.Idx) (q : dot_S2048x128_S128x640_S2048x640_1_0_0_1_n_n.contr.Idx) : (dot_S2048x128_S128x640_S2048x640_1_0_0_1_n_n.rhsIdx i q 0).val = (q ⟨0, by decide⟩).val :=
  dot_S2048x128_S128x640_S2048x640_1_0_0_1_n_n.rhsIdx_val_of_single rfl i q
theorem mm_feat640_r1 (i : S2048x640.Idx) (q : dot_S2048x128_S128x640_S2048x640_1_0_0_1_n_n.contr.Idx) : (dot_S2048x128_S128x640_S2048x640_1_0_0_1_n_n.rhsIdx i q 1).val = (i 1).val := by
  unfold DotDims.rhsIdx
  rw [dif_neg (show ¬(1 : Fin S128x640.rank) ∈ dot_S2048x128_S128x640_S2048x640_1_0_0_1_n_n.rhsBatch by decide), dif_pos (show (1 : Fin S128x640.rank) ∈ dot_S2048x128_S128x640_S2048x640_1_0_0_1_n_n.rhsNonContracting by decide)]
  rfl

/-- A product of a 2048×128 by a 128×640 matrix into a zero accumulator is, as matrices, the entrywise sum of products. -/
theorem mm_feat640 (l : FVec Ideal S2048x128 .f32) (r : FVec Ideal S128x640 .f32) :
    plain (matmul dot_S2048x128_S128x640_S2048x640_1_0_0_1_n_n none l r (constant (F := Ideal) S2048x640 .f32 0x00000000#32)) = emul (plain l) (plain r) := by
  funext i j
  show matmul dot_S2048x128_S128x640_S2048x640_1_0_0_1_n_n none l r (constant (F := Ideal) S2048x640 .f32 0x00000000#32) (ix2 i j) = ∑ k : Fin 128, l (ix2 i k) * r (ix2 k j)
  unfold matmul
  rw [Ideal.matmul_constant_zero_apply, ← Equiv.sum_comp (contrEquiv1 dot_S2048x128_S128x640_S2048x640_1_0_0_1_n_n 128 rfl rfl).symm]
  refine Finset.sum_congr rfl fun k _ => ?_
  have hk := contrEquiv1_symm_val dot_S2048x128_S128x640_S2048x640_1_0_0_1_n_n 128 rfl rfl k
  have el : dot_S2048x128_S128x640_S2048x640_1_0_0_1_n_n.lhsIdx (ix2 i j) ((contrEquiv1 dot_S2048x128_S128x640_S2048x640_1_0_0_1_n_n 128 rfl rfl).symm k) = ix2 i k := funext fun a => Fin.ext (by
    match a with
    | ⟨0, _⟩ => exact mm_feat640_l0 _ _
    | ⟨1, _⟩ => exact (mm_feat640_l1 _ _).trans hk)
  have er : dot_S2048x128_S128x640_S2048x640_1_0_0_1_n_n.rhsIdx (ix2 i j) ((contrEquiv1 dot_S2048x128_S128x640_S2048x640_1_0_0_1_n_n 128 rfl rfl).symm k) = ix2 k j := funext fun a => Fin.ext (by
    match a with
    | ⟨0, _⟩ => exact (mm_feat640_r0 _ _).trans hk
    | ⟨1, _⟩ => exact mm_feat640_r1 _ _)
  rw [el, er]

theorem mm_graph128_l0 (i : S2048x128.Idx) (q : dot_S2048x2048_S2048x128_S2048x128_1_0_0_1_n_n.contr.Idx) : (dot_S2048x2048_S2048x128_S2048x128_1_0_0_1_n_n.lhsIdx i q 0).val = (i 0).val := by
  unfold DotDims.lhsIdx
  rw [dif_neg (show ¬(0 : Fin S2048x2048.rank) ∈ dot_S2048x2048_S2048x128_S2048x128_1_0_0_1_n_n.lhsBatch by decide), dif_pos (show (0 : Fin S2048x2048.rank) ∈ dot_S2048x2048_S2048x128_S2048x128_1_0_0_1_n_n.lhsNonContracting by decide)]
  rfl
theorem mm_graph128_l1 (i : S2048x128.Idx) (q : dot_S2048x2048_S2048x128_S2048x128_1_0_0_1_n_n.contr.Idx) : (dot_S2048x2048_S2048x128_S2048x128_1_0_0_1_n_n.lhsIdx i q 1).val = (q ⟨0, by decide⟩).val :=
  dot_S2048x2048_S2048x128_S2048x128_1_0_0_1_n_n.lhsIdx_val_of_single rfl i q
theorem mm_graph128_r0 (i : S2048x128.Idx) (q : dot_S2048x2048_S2048x128_S2048x128_1_0_0_1_n_n.contr.Idx) : (dot_S2048x2048_S2048x128_S2048x128_1_0_0_1_n_n.rhsIdx i q 0).val = (q ⟨0, by decide⟩).val :=
  dot_S2048x2048_S2048x128_S2048x128_1_0_0_1_n_n.rhsIdx_val_of_single rfl i q
theorem mm_graph128_r1 (i : S2048x128.Idx) (q : dot_S2048x2048_S2048x128_S2048x128_1_0_0_1_n_n.contr.Idx) : (dot_S2048x2048_S2048x128_S2048x128_1_0_0_1_n_n.rhsIdx i q 1).val = (i 1).val := by
  unfold DotDims.rhsIdx
  rw [dif_neg (show ¬(1 : Fin S2048x128.rank) ∈ dot_S2048x2048_S2048x128_S2048x128_1_0_0_1_n_n.rhsBatch by decide), dif_pos (show (1 : Fin S2048x128.rank) ∈ dot_S2048x2048_S2048x128_S2048x128_1_0_0_1_n_n.rhsNonContracting by decide)]
  rfl

/-- A product of a 2048×2048 by a 2048×128 matrix into a zero accumulator is, as matrices, the entrywise sum of products. -/
theorem mm_graph128 (l : FVec Ideal S2048x2048 .bf16) (r : FVec Ideal S2048x128 .bf16) :
    plain (matmul dot_S2048x2048_S2048x128_S2048x128_1_0_0_1_n_n none l r (constant (F := Ideal) S2048x128 .f32 0x00000000#32)) = emul (plain l) (plain r) := by
  funext i j
  show matmul dot_S2048x2048_S2048x128_S2048x128_1_0_0_1_n_n none l r (constant (F := Ideal) S2048x128 .f32 0x00000000#32) (ix2 i j) = ∑ k : Fin 2048, l (ix2 i k) * r (ix2 k j)
  unfold matmul
  rw [Ideal.matmul_constant_zero_apply, ← Equiv.sum_comp (contrEquiv1 dot_S2048x2048_S2048x128_S2048x128_1_0_0_1_n_n 2048 rfl rfl).symm]
  refine Finset.sum_congr rfl fun k _ => ?_
  have hk := contrEquiv1_symm_val dot_S2048x2048_S2048x128_S2048x128_1_0_0_1_n_n 2048 rfl rfl k
  have el : dot_S2048x2048_S2048x128_S2048x128_1_0_0_1_n_n.lhsIdx (ix2 i j) ((contrEquiv1 dot_S2048x2048_S2048x128_S2048x128_1_0_0_1_n_n 2048 rfl rfl).symm k) = ix2 i k := funext fun a => Fin.ext (by
    match a with
    | ⟨0, _⟩ => exact mm_graph128_l0 _ _
    | ⟨1, _⟩ => exact (mm_graph128_l1 _ _).trans hk)
  have er : dot_S2048x2048_S2048x128_S2048x128_1_0_0_1_n_n.rhsIdx (ix2 i j) ((contrEquiv1 dot_S2048x2048_S2048x128_S2048x128_1_0_0_1_n_n 2048 rfl rfl).symm k) = ix2 k j := funext fun a => Fin.ext (by
    match a with
    | ⟨0, _⟩ => exact (mm_graph128_r0 _ _).trans hk
    | ⟨1, _⟩ => exact mm_graph128_r1 _ _)
  rw [el, er]

theorem mm_feat320_l0 (i : S2048x320.Idx) (q : dot_S2048x128_S128x320_S2048x320_1_0_0_1_n_n.contr.Idx) : (dot_S2048x128_S128x320_S2048x320_1_0_0_1_n_n.lhsIdx i q 0).val = (i 0).val := by
  unfold DotDims.lhsIdx
  rw [dif_neg (show ¬(0 : Fin S2048x128.rank) ∈ dot_S2048x128_S128x320_S2048x320_1_0_0_1_n_n.lhsBatch by decide), dif_pos (show (0 : Fin S2048x128.rank) ∈ dot_S2048x128_S128x320_S2048x320_1_0_0_1_n_n.lhsNonContracting by decide)]
  rfl
theorem mm_feat320_l1 (i : S2048x320.Idx) (q : dot_S2048x128_S128x320_S2048x320_1_0_0_1_n_n.contr.Idx) : (dot_S2048x128_S128x320_S2048x320_1_0_0_1_n_n.lhsIdx i q 1).val = (q ⟨0, by decide⟩).val :=
  dot_S2048x128_S128x320_S2048x320_1_0_0_1_n_n.lhsIdx_val_of_single rfl i q
theorem mm_feat320_r0 (i : S2048x320.Idx) (q : dot_S2048x128_S128x320_S2048x320_1_0_0_1_n_n.contr.Idx) : (dot_S2048x128_S128x320_S2048x320_1_0_0_1_n_n.rhsIdx i q 0).val = (q ⟨0, by decide⟩).val :=
  dot_S2048x128_S128x320_S2048x320_1_0_0_1_n_n.rhsIdx_val_of_single rfl i q
theorem mm_feat320_r1 (i : S2048x320.Idx) (q : dot_S2048x128_S128x320_S2048x320_1_0_0_1_n_n.contr.Idx) : (dot_S2048x128_S128x320_S2048x320_1_0_0_1_n_n.rhsIdx i q 1).val = (i 1).val := by
  unfold DotDims.rhsIdx
  rw [dif_neg (show ¬(1 : Fin S128x320.rank) ∈ dot_S2048x128_S128x320_S2048x320_1_0_0_1_n_n.rhsBatch by decide), dif_pos (show (1 : Fin S128x320.rank) ∈ dot_S2048x128_S128x320_S2048x320_1_0_0_1_n_n.rhsNonContracting by decide)]
  rfl

/-- A product of a 2048×128 by a 128×320 matrix into a zero accumulator is, as matrices, the entrywise sum of products. -/
theorem mm_feat320 (l : FVec Ideal S2048x128 .f32) (r : FVec Ideal S128x320 .f32) :
    plain (matmul dot_S2048x128_S128x320_S2048x320_1_0_0_1_n_n none l r (constant (F := Ideal) S2048x320 .f32 0x00000000#32)) = emul (plain l) (plain r) := by
  funext i j
  show matmul dot_S2048x128_S128x320_S2048x320_1_0_0_1_n_n none l r (constant (F := Ideal) S2048x320 .f32 0x00000000#32) (ix2 i j) = ∑ k : Fin 128, l (ix2 i k) * r (ix2 k j)
  unfold matmul
  rw [Ideal.matmul_constant_zero_apply, ← Equiv.sum_comp (contrEquiv1 dot_S2048x128_S128x320_S2048x320_1_0_0_1_n_n 128 rfl rfl).symm]
  refine Finset.sum_congr rfl fun k _ => ?_
  have hk := contrEquiv1_symm_val dot_S2048x128_S128x320_S2048x320_1_0_0_1_n_n 128 rfl rfl k
  have el : dot_S2048x128_S128x320_S2048x320_1_0_0_1_n_n.lhsIdx (ix2 i j) ((contrEquiv1 dot_S2048x128_S128x320_S2048x320_1_0_0_1_n_n 128 rfl rfl).symm k) = ix2 i k := funext fun a => Fin.ext (by
    match a with
    | ⟨0, _⟩ => exact mm_feat320_l0 _ _
    | ⟨1, _⟩ => exact (mm_feat320_l1 _ _).trans hk)
  have er : dot_S2048x128_S128x320_S2048x320_1_0_0_1_n_n.rhsIdx (ix2 i j) ((contrEquiv1 dot_S2048x128_S128x320_S2048x320_1_0_0_1_n_n 128 rfl rfl).symm k) = ix2 k j := funext fun a => Fin.ext (by
    match a with
    | ⟨0, _⟩ => exact (mm_feat320_r0 _ _).trans hk
    | ⟨1, _⟩ => exact mm_feat320_r1 _ _)
  rw [el, er]

theorem mm_graph64_l0 (i : S2048x64.Idx) (q : dot_S2048x2048_S2048x64_S2048x64_1_0_0_1_n_n.contr.Idx) : (dot_S2048x2048_S2048x64_S2048x64_1_0_0_1_n_n.lhsIdx i q 0).val = (i 0).val := by
  unfold DotDims.lhsIdx
  rw [dif_neg (show ¬(0 : Fin S2048x2048.rank) ∈ dot_S2048x2048_S2048x64_S2048x64_1_0_0_1_n_n.lhsBatch by decide), dif_pos (show (0 : Fin S2048x2048.rank) ∈ dot_S2048x2048_S2048x64_S2048x64_1_0_0_1_n_n.lhsNonContracting by decide)]
  rfl
theorem mm_graph64_l1 (i : S2048x64.Idx) (q : dot_S2048x2048_S2048x64_S2048x64_1_0_0_1_n_n.contr.Idx) : (dot_S2048x2048_S2048x64_S2048x64_1_0_0_1_n_n.lhsIdx i q 1).val = (q ⟨0, by decide⟩).val :=
  dot_S2048x2048_S2048x64_S2048x64_1_0_0_1_n_n.lhsIdx_val_of_single rfl i q
theorem mm_graph64_r0 (i : S2048x64.Idx) (q : dot_S2048x2048_S2048x64_S2048x64_1_0_0_1_n_n.contr.Idx) : (dot_S2048x2048_S2048x64_S2048x64_1_0_0_1_n_n.rhsIdx i q 0).val = (q ⟨0, by decide⟩).val :=
  dot_S2048x2048_S2048x64_S2048x64_1_0_0_1_n_n.rhsIdx_val_of_single rfl i q
theorem mm_graph64_r1 (i : S2048x64.Idx) (q : dot_S2048x2048_S2048x64_S2048x64_1_0_0_1_n_n.contr.Idx) : (dot_S2048x2048_S2048x64_S2048x64_1_0_0_1_n_n.rhsIdx i q 1).val = (i 1).val := by
  unfold DotDims.rhsIdx
  rw [dif_neg (show ¬(1 : Fin S2048x64.rank) ∈ dot_S2048x2048_S2048x64_S2048x64_1_0_0_1_n_n.rhsBatch by decide), dif_pos (show (1 : Fin S2048x64.rank) ∈ dot_S2048x2048_S2048x64_S2048x64_1_0_0_1_n_n.rhsNonContracting by decide)]
  rfl

/-- A product of a 2048×2048 by a 2048×64 matrix into a zero accumulator is, as matrices, the entrywise sum of products. -/
theorem mm_graph64 (l : FVec Ideal S2048x2048 .bf16) (r : FVec Ideal S2048x64 .bf16) :
    plain (matmul dot_S2048x2048_S2048x64_S2048x64_1_0_0_1_n_n none l r (constant (F := Ideal) S2048x64 .f32 0x00000000#32)) = emul (plain l) (plain r) := by
  funext i j
  show matmul dot_S2048x2048_S2048x64_S2048x64_1_0_0_1_n_n none l r (constant (F := Ideal) S2048x64 .f32 0x00000000#32) (ix2 i j) = ∑ k : Fin 2048, l (ix2 i k) * r (ix2 k j)
  unfold matmul
  rw [Ideal.matmul_constant_zero_apply, ← Equiv.sum_comp (contrEquiv1 dot_S2048x2048_S2048x64_S2048x64_1_0_0_1_n_n 2048 rfl rfl).symm]
  refine Finset.sum_congr rfl fun k _ => ?_
  have hk := contrEquiv1_symm_val dot_S2048x2048_S2048x64_S2048x64_1_0_0_1_n_n 2048 rfl rfl k
  have el : dot_S2048x2048_S2048x64_S2048x64_1_0_0_1_n_n.lhsIdx (ix2 i j) ((contrEquiv1 dot_S2048x2048_S2048x64_S2048x64_1_0_0_1_n_n 2048 rfl rfl).symm k) = ix2 i k := funext fun a => Fin.ext (by
    match a with
    | ⟨0, _⟩ => exact mm_graph64_l0 _ _
    | ⟨1, _⟩ => exact (mm_graph64_l1 _ _).trans hk)
  have er : dot_S2048x2048_S2048x64_S2048x64_1_0_0_1_n_n.rhsIdx (ix2 i j) ((contrEquiv1 dot_S2048x2048_S2048x64_S2048x64_1_0_0_1_n_n 2048 rfl rfl).symm k) = ix2 k j := funext fun a => Fin.ext (by
    match a with
    | ⟨0, _⟩ => exact (mm_graph64_r0 _ _).trans hk
    | ⟨1, _⟩ => exact mm_graph64_r1 _ _)
  rw [el, er]

/-! ## The body's stages, one batch element, as matrix expressions

Each stage is stated over variables of the literal vector types: the features X, the state H and the graph A of one
batch element as blocks of shape [1, ·, ·], the weights and biases as whole arrays. -/

section Stages

variable (X H : Vec Ideal S1x2048x64 .f32) (A A' A'' : Vec Ideal S1x2048x2048 .bf16)
  (W3 : Vec Ideal S128x640 .f32) (W4 : Vec Ideal S128x320 .f32) (B : Vec Ideal S2048x64 .f32)

/-- The projection of [X | H] by all five hops' gate weights at once. -/
theorem pay2_plain : plain (k0_pay2 (F := Ideal) X H W3) = emul (hcat64 (sq X) (sq H)) (plain W3) := by
  unfold k0_pay2
  simp only [mm_feat640, plain_hcat, plain_dropUnit, shapeCast_self]

/-- The first step of Horner's rule on the gates' 128 columns: A·P₄ + P₃. -/
theorem pay4_plain : plain (k0_pay4 (F := Ideal) X H W3 A)
    = eadd (emul (sq A) (cols 128 512 (by norm_num) (plain (k0_pay2 (F := Ideal) X H W3))))
        (cols 128 384 (by norm_num) (plain (k0_pay2 (F := Ideal) X H W3))) := by
  unfold k0_pay4
  simp only [plain_addf, mm_graph128, plain_truncf, plain_dropUnit, plain_slice]
  rfl

/-- The remaining three steps on the gates' columns. -/
theorem pay6_plain (P : FVec Ideal S2048x640 .f32) (T : FVec Ideal S2048x128 .f32) :
    plain (k0_pay6 (F := Ideal) P T A A' A'')
      = eadd (emul (sq A'') (eadd (emul (sq A') (eadd (emul (sq A) (plain T)) (cols 128 256 (by norm_num) (plain P))))
          (cols 128 128 (by norm_num) (plain P)))) (cols 128 0 (by norm_num) (plain P)) := by
  unfold k0_pay6
  simp only [plain_addf, mm_graph128, plain_truncf, plain_dropUnit, plain_slice]
  rfl

/-- The reset gate's pre-activation: the left 64 of the gates' 128 columns. -/
theorem pay8_plain (P : FVec Ideal S2048x640 .f32) (T : FVec Ideal S2048x128 .f32) :
    plain (k0_pay8 (F := Ideal) P T A A' A'') = cols 64 0 (by norm_num) (plain (k0_pay6 (F := Ideal) P T A A' A'')) := by
  unfold k0_pay8
  simp only [plain_slice]
  rfl

/-- The update gate: the logistic function of the right 64 columns plus the bias. -/
theorem pay9_plain (C : FVec Ideal S2048x128 .f32) :
    plain (k0_pay9 (F := Ideal) C B) = fun i j => Ideal.logistic (cols 64 64 (by norm_num) (plain C) i j + plain B i j) := by
  unfold k0_pay9
  funext i j
  show Ideal.logistic (plain (extractStridedSlice S2048x64 ![0, 64] C _) i j + plain B i j) = _
  rw [plain_slice]
  rfl

/-- The projection of [X | r ⊙ H] by all five hops' candidate weights at once, r the reset gate. -/
theorem pay11_plain (R : FVec Ideal S2048x64 .f32) :
    plain (k0_pay11 (F := Ideal) R B X H W4) = emul (hcat64 (sq X) (gated (plain R) (plain B) (sq H))) (plain W4) := by
  unfold k0_pay11
  simp only [mm_feat320, plain_hcat, plain_gate, plain_dropUnit, shapeCast_self]

theorem pay13_plain (R : FVec Ideal S2048x64 .f32) :
    plain (k0_pay13 (F := Ideal) R B X H W4) = cols 64 256 (by norm_num) (plain (k0_pay11 (F := Ideal) R B X H W4)) := by
  unfold k0_pay13
  simp only [plain_slice]
  rfl

/-- Three steps of Horner's rule on the candidate's 64 columns. -/
theorem pay15_plain (Q : FVec Ideal S2048x320 .f32) (T : FVec Ideal S2048x64 .f32) :
    plain (k0_pay15 (F := Ideal) Q T A A' A'')
      = eadd (emul (sq A'') (eadd (emul (sq A') (eadd (emul (sq A) (plain T)) (cols 64 192 (by norm_num) (plain Q))))
          (cols 64 128 (by norm_num) (plain Q)))) (cols 64 64 (by norm_num) (plain Q)) := by
  unfold k0_pay15
  simp only [plain_addf, mm_graph64, plain_truncf, plain_dropUnit, plain_slice]
  rfl

/-- The last step and the blend u ⊙ H + (1 − u) ⊙ tanh(· + b), at an entry of the stored block. -/
theorem pay17_apply (U : FVec Ideal S2048x64 .f32) (Q : FVec Ideal S2048x320 .f32) (T : FVec Ideal S2048x64 .f32)
    (u : Fin 1) (i : Fin 2048) (j : Fin 64) :
    k0_pay17 (F := Ideal) U Q T A B H (ix3 u i j)
      = plain U i j * sq H i j + (oneWord - plain U i j)
          * Ideal.tanh (eadd (emul (sq A) (plain T)) (cols 64 0 (by norm_num) (plain Q)) i j + plain B i j) := by
  unfold k0_pay17
  refine (shapeCast_ab_1ab_apply _ _ u i j).trans ?_
  have e1 : plain (shapeCast S2048x64 H shapeCasts_S1x2048x64_S2048x64) = sq H := plain_dropUnit H _
  have e2 : plain (addf (matmul dot_S2048x2048_S2048x64_S2048x64_1_0_0_1_n_n none
        (shapeCast S2048x2048 A shapeCasts_S1x2048x2048_S2048x2048 : FVec Ideal S2048x2048 .bf16)
        (truncf .bf16 T bitsLt_bf16_f32) (constant (F := Ideal) S2048x64 .f32 0x00000000#32))
        (extractStridedSlice S2048x64 ![0, 0] Q slices_S2048x320_o0_0_S2048x64))
      = eadd (emul (sq A) (plain T)) (cols 64 0 (by norm_num) (plain Q)) := by
    simp only [plain_addf, mm_graph64, plain_truncf, plain_dropUnit, plain_slice]
    rfl
  rw [← e1, ← e2]
  rfl

end Stages

/-! ## The cell of one batch element -/

/-- The left 64 of 128 columns, as the specification names them. -/
theorem cols_zero_lo {a : ℕ} (M : EMat a 128) : cols 64 0 (by norm_num) M = fun i j => M i (lo64 j) := by
  funext i j
  exact congrArg (M i) (Fin.ext (Nat.zero_add _))

section Cell

variable (X H : Vec Ideal S1x2048x64 .f32) (A : Vec Ideal S1x2048x2048 .bf16)
  (W3 : Vec Ideal S128x640 .f32) (W4 : Vec Ideal S128x320 .f32) (Br Bu Bc : Vec Ideal S2048x64 .f32)

/-- The gates' recursion on 128 columns is Horner's rule over the packed weights: a column range of the one big
    projection is the projection by that hop's columns of the weights. -/
theorem gates_plain : plain (k0_pay6 (F := Ideal) (k0_pay2 X H W3) (k0_pay4 X H W3 A) A A A)
    = horner (sq A) (hcat64 (sq X) (sq H)) (packed128 W3) := by
  rw [pay6_plain, pay4_plain, pay2_plain]
  simp only [cols_emul]
  rfl

/-- The candidate's recursion on 64 columns, with its last step, is Horner's rule over the packed weights. -/
theorem cand_plain (R : FVec Ideal S2048x64 .f32) :
    eadd (emul (sq A) (plain (k0_pay15 (F := Ideal) (k0_pay11 R Br X H W4) (k0_pay13 R Br X H W4) A A A)))
        (cols 64 0 (by norm_num) (plain (k0_pay11 (F := Ideal) R Br X H W4)))
      = horner (sq A) (hcat64 (sq X) (gated (plain R) (plain Br) (sq H))) (packed64 W4) := by
  rw [pay15_plain, pay13_plain, pay11_plain]
  simp only [cols_emul]
  rfl

/-- The whole body of one batch element, at an entry of the block it stores. -/
theorem body_apply (u : Fin 1) (i : Fin 2048) (j : Fin 64) :
    k0_pay17 (F := Ideal) (k0_pay9 (k0_pay6 (k0_pay2 X H W3) (k0_pay4 X H W3 A) A A A) Bu)
        (k0_pay11 (k0_pay8 (k0_pay2 X H W3) (k0_pay4 X H W3 A) A A A) Br X H W4)
        (k0_pay15 (k0_pay11 (k0_pay8 (k0_pay2 X H W3) (k0_pay4 X H W3 A) A A A) Br X H W4)
          (k0_pay13 (k0_pay8 (k0_pay2 X H W3) (k0_pay4 X H W3 A) A A A) Br X H W4) A A A)
        A Bc H (ix3 u i j)
      = gruHorner (sq A) (sq X) (sq H) (packed128 W3) (packed64 W4) (plain Br) (plain Bu) (plain Bc) i j := by
  rw [pay17_apply, cand_plain, pay9_plain, pay8_plain, gates_plain, cols_zero_lo]
  rfl

end Cell

/-! ## The second batch element's stages are the first's

The body is written out once per batch element; the two copies are the same arithmetic, except that the second takes
the reset gate's columns inside the stage that uses them and casts the result to the stored shape in a stage of its own. -/

section Copies

variable {F : FTy → Type} [FloatOps F]
variable (X H : Vec F S1x2048x64 .f32) (A : Vec F S1x2048x2048 .bf16)
  (W3 : Vec F S128x640 .f32) (W4 : Vec F S128x320 .f32) (Br Bu Bc : Vec F S2048x64 .f32)

theorem body_copy :
    k0_pay1 (k0_pay18 (k0_pay10 (k0_pay7 (k0_pay3 X H W3) (k0_pay5 X H W3 A) A A A) Bu)
        (k0_pay12 (k0_pay7 (k0_pay3 X H W3) (k0_pay5 X H W3 A) A A A) Br X H W4)
        (k0_pay16 (k0_pay12 (k0_pay7 (k0_pay3 X H W3) (k0_pay5 X H W3 A) A A A) Br X H W4)
          (k0_pay14 (k0_pay7 (k0_pay3 X H W3) (k0_pay5 X H W3 A) A A A) Br X H W4) A A A)
        A Bc H)
      = k0_pay17 (k0_pay9 (k0_pay6 (k0_pay2 X H W3) (k0_pay4 X H W3 A) A A A) Bu)
        (k0_pay11 (k0_pay8 (k0_pay2 X H W3) (k0_pay4 X H W3 A) A A A) Br X H W4)
        (k0_pay15 (k0_pay11 (k0_pay8 (k0_pay2 X H W3) (k0_pay4 X H W3 A) A A A) Br X H W4)
          (k0_pay13 (k0_pay8 (k0_pay2 X H W3) (k0_pay4 X H W3 A) A A A) Br X H W4) A A A)
        A Bc H := rfl

end Copies

/-! ## The loads and the two stores -/

/-- The rectangle of batch element 0 in a [2, 2048, 64] array places (0, i, j) at (0, i, j), -/
theorem idx_r0_0 (i : Fin 2048) (j : Fin 64) : r0_0.idx (ix3 (0 : Fin 1) i j) = ix3 (0 : Fin 2) i j := by
  funext a; apply Fin.ext
  match a with
  | ⟨0, _⟩ => rfl
  | ⟨1, _⟩ => show 0 + 1 * i.val = i.val; omega
  | ⟨2, _⟩ => show 0 + 1 * j.val = j.val; omega

/-- and that of batch element 1 at (1, i, j). -/
theorem idx_r0_1 (i : Fin 2048) (j : Fin 64) : r0_1.idx (ix3 (0 : Fin 1) i j) = ix3 (1 : Fin 2) i j := by
  funext a; apply Fin.ext
  match a with
  | ⟨0, _⟩ => rfl
  | ⟨1, _⟩ => show 0 + 1 * i.val = i.val; omega
  | ⟨2, _⟩ => show 0 + 1 * j.val = j.val; omega

/-- The same for the graph's [2, 2048, 2048] array. -/
theorem idx_r0_3 (i k : Fin 2048) : r0_3.idx (ix3 (0 : Fin 1) i k) = ix3 (0 : Fin 2) i k := by
  funext a; apply Fin.ext
  match a with
  | ⟨0, _⟩ => rfl
  | ⟨1, _⟩ => show 0 + 1 * i.val = i.val; omega
  | ⟨2, _⟩ => show 0 + 1 * k.val = k.val; omega

theorem idx_r0_4 (i k : Fin 2048) : r0_4.idx (ix3 (0 : Fin 1) i k) = ix3 (1 : Fin 2) i k := by
  funext a; apply Fin.ext
  match a with
  | ⟨0, _⟩ => rfl
  | ⟨1, _⟩ => show 0 + 1 * i.val = i.val; omega
  | ⟨2, _⟩ => show 0 + 1 * k.val = k.val; omega

/-- Of the two stored blocks, an entry of batch element 1 reads the first listed, -/
theorem canon_batch1 (p1 p0 : Vec Ideal S1x2048x64 .f32) (i : Fin 2048) (j : Fin 64) :
    View.canon ([⟨r0_1, p1⟩, ⟨r0_0, p0⟩] : List (View.Piece (Elt Ideal) S2x2048x64 .f32)) (ix3 (1 : Fin 2) i j)
      = p1 (ix3 (0 : Fin 1) i j) := by
  rw [← idx_r0_1 i j]
  exact View.canon_cons_emb r0_1 p1 _ _

/-- and an entry of batch element 0, which the first block does not hold, the second. -/
theorem canon_batch0 (p1 p0 : Vec Ideal S1x2048x64 .f32) (i : Fin 2048) (j : Fin 64) :
    View.canon ([⟨r0_1, p1⟩, ⟨r0_0, p0⟩] : List (View.Piece (Elt Ideal) S2x2048x64 .f32)) (ix3 (0 : Fin 2) i j)
      = p0 (ix3 (0 : Fin 1) i j) := by
  have hn : ix3 (0 : Fin 2) i j ∉ r0_1.set := fun hm => by
    rw [Rect.mem_set_unit] at hm
    exact absurd (hm 0).1 (show ¬ (1 ≤ 0) by decide)
  rw [View.canon_cons_of_not_mem (⟨r0_1, p1⟩ : View.Piece (Elt Ideal) S2x2048x64 .f32) _ hn, ← idx_r0_0 i j]
  exact View.canon_cons_emb r0_0 p0 _ _

/-! ## The body at an entry -/

/-- Batch element 0 of a [2, 2048, 64] array, loaded as a block, is its matrix; -/
theorem sq_ld_r0_0 (x : Vec Ideal S2x2048x64 .f32) : sq (View.ld x r0_0 : Vec Ideal S1x2048x64 .f32) = batch x 0 :=
  funext fun i => funext fun j => congrArg x (idx_r0_0 i j)

/-- likewise batch element 1; -/
theorem sq_ld_r0_1 (x : Vec Ideal S2x2048x64 .f32) : sq (View.ld x r0_1 : Vec Ideal S1x2048x64 .f32) = batch x 1 :=
  funext fun i => funext fun j => congrArg x (idx_r0_1 i j)

/-- and the two batch elements of the graph. -/
theorem sq_ld_r0_3 (x : Vec Ideal S2x2048x2048 .bf16) : sq (View.ld x r0_3 : Vec Ideal S1x2048x2048 .bf16) = batch x 0 :=
  funext fun i => funext fun k => congrArg x (idx_r0_3 i k)

theorem sq_ld_r0_4 (x : Vec Ideal S2x2048x2048 .bf16) : sq (View.ld x r0_4 : Vec Ideal S1x2048x2048 .bf16) = batch x 1 :=
  funext fun i => funext fun k => congrArg x (idx_r0_4 i k)

/-- What the body leaves at entry (b, i, j) of the output is the cell by Horner's rule of batch element b, at (i, j):
    the entry lies in the block stored for b, whose payload is the body of one batch element over b's loads. -/
theorem out_entry (x0 : Vec Ideal S2x2048x2048 .bf16) (x1 x2 : Vec Ideal S2x2048x64 .f32) (x3 : Vec Ideal S128x640 .f32)
    (x4 : Vec Ideal S128x320 .f32) (x5 x6 x7 : Vec Ideal S2048x64 .f32) (b : Fin 2) (i : Fin 2048) (j : Fin 64) :
    Gen.out0_8 (F := Ideal) x0 x1 x2 x3 x4 x5 x6 x7 (ix3 b i j)
      = gruHorner (batch x0 b) (batch x1 b) (batch x2 b) (packed128 x3) (packed64 x4) (plain x5) (plain x6) (plain x7) i j := by
  have h3 : View.ld x3 r0_2 = x3 := View.ld_unit_zero (S := S128x640) (by funext a; fin_cases a <;> rfl) _ x3
  have h4 : View.ld x4 r0_6 = x4 := View.ld_unit_zero (S := S128x320) (by funext a; fin_cases a <;> rfl) _ x4
  have h5 : View.ld x5 r0_5 = x5 := View.ld_unit_zero (S := S2048x64) (by funext a; fin_cases a <;> rfl) _ x5
  have h6 : View.ld x6 r0_5 = x6 := View.ld_unit_zero (S := S2048x64) (by funext a; fin_cases a <;> rfl) _ x6
  have h7 : View.ld x7 r0_5 = x7 := View.ld_unit_zero (S := S2048x64) (by funext a; fin_cases a <;> rfl) _ x7
  unfold Gen.out0_8
  match b with
  | ⟨0, _⟩ =>
    refine (canon_batch0 _ _ i j).trans ?_
    refine (body_apply (View.ld x1 r0_0) (View.ld x2 r0_0) (View.ld x0 r0_3) (View.ld x3 r0_2) (View.ld x4 r0_6)
      (View.ld x5 r0_5) (View.ld x6 r0_5) (View.ld x7 r0_5) 0 i j).trans ?_
    rw [sq_ld_r0_3, sq_ld_r0_0, sq_ld_r0_0, h3, h4, h5, h6, h7]
    rfl
  | ⟨1, _⟩ =>
    refine (canon_batch1 _ _ i j).trans ?_
    refine (congrFun (body_copy (F := Ideal) (View.ld x1 r0_1) (View.ld x2 r0_1) (View.ld x0 r0_4) (View.ld x3 r0_2)
      (View.ld x4 r0_6) (View.ld x5 r0_5) (View.ld x6 r0_5) (View.ld x7 r0_5)) (ix3 (0 : Fin 1) i j)).trans ?_
    refine (body_apply (View.ld x1 r0_1) (View.ld x2 r0_1) (View.ld x0 r0_4) (View.ld x3 r0_2) (View.ld x4 r0_6)
      (View.ld x5 r0_5) (View.ld x6 r0_5) (View.ld x7 r0_5) 0 i j).trans ?_
    rw [sq_ld_r0_4, sq_ld_r0_1, sq_ld_r0_1, h3, h4, h5, h6, h7]
    rfl

end Cert.KernelBody

end
-- ==== Proof.ReferenceValue.lean ====
/-
  The reference program read at one entry of its result.

  The program is the graph-diffusion GRU cell on two batch elements, written with array operations: the features and the
  state joined on the feature axis, [X | H]; for each gate's weights W a five-hop convolution computed as it goes,
  out = Z·W[0], then four times Z ← A·Z (a product batched over the batch axis) and out ← out + Z·W[k] (W[k] the slice
  [k:k+1] of the weights with its unit axis dropped); a bias broadcast over the batch; the logistic function spelled
  1 / (1 + exp (−x)); the candidate's convolution on [X | r ⊙ H]; the hyperbolic tangent; and the blend
  u ⊙ H + (1 − u) ⊙ c.

  Every array operation acts on each batch element by itself, so on batch element b the two products are matrix products
  (`emul`), the sums entrywise sums (`eadd`), the joined arrays two matrices side by side (`hcat64`), and slice k of the
  weights hop k's matrix. The convolution as the program accumulates it is then, term for term, the sum over the hops
  (`powers`) of the powers of the graph applied to the features times the hop's weights, and the whole program at entry
  (b, i, j) is the cell `gruPowers` on batch element b at (i, j). No finiteness of the entries is used: each step is a
  reading of an operation at an index, not an algebraic law.
-/
import proofs.«167347_g42064909697411_cont_8to1_b_244_7_alg».proof.Proof.Gen.ReferenceIdeal.Read
import proofs.«167347_g42064909697411_cont_8to1_b_244_7_alg».proof.Proof.GruSpec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceValue

open Idealize.ShloMosaic Idealize.ShloMosaic.ValueIdx Cert.Diffusion Cert.ReferenceIdeal Cert.ReferenceIdeal.Gen

/-! ## The two products of the program, as matrix products of one batch element -/

/-- The dimension numbers of a product with a hop's weights: [2, 2048, 128] · [128, 64], contracting the feature axis. -/
abbrev dW : DotDims S2x2048x128 S128x64 S2x2048x64 := dot_S2x2048x128_S128x64_S2x2048x64_2_0_01_1_n_n
/-- The dimension numbers of a product with the graph: batched over axis 0, contracting the graph's columns with the
    features' rows. -/
abbrev dA : DotDims S2x2048x2048 S2x2048x128 S2x2048x128 := dot_S2x2048x2048_S2x2048x128_S2x2048x128_2_1_1_2_0_0

theorem dW_lhs_0 (i : S2x2048x64.Idx) (q : dW.contr.Idx) : (dW.lhsIdx i q 0).val = (i 0).val := by
  unfold DotDims.lhsIdx
  rw [dif_neg (show ¬(0 : Fin S2x2048x128.rank) ∈ dW.lhsBatch by decide), dif_pos (show (0 : Fin S2x2048x128.rank) ∈ dW.lhsNonContracting by decide)]
  rfl
theorem dW_lhs_1 (i : S2x2048x64.Idx) (q : dW.contr.Idx) : (dW.lhsIdx i q 1).val = (i 1).val := by
  unfold DotDims.lhsIdx
  rw [dif_neg (show ¬(1 : Fin S2x2048x128.rank) ∈ dW.lhsBatch by decide), dif_pos (show (1 : Fin S2x2048x128.rank) ∈ dW.lhsNonContracting by decide)]
  rfl
theorem dW_lhs_2 (i : S2x2048x64.Idx) (q : dW.contr.Idx) : (dW.lhsIdx i q 2).val = (q ⟨0, by decide⟩).val :=
  dW.lhsIdx_val_of_single rfl i q
theorem dW_rhs_0 (i : S2x2048x64.Idx) (q : dW.contr.Idx) : (dW.rhsIdx i q 0).val = (q ⟨0, by decide⟩).val :=
  dW.rhsIdx_val_of_single rfl i q
theorem dW_rhs_1 (i : S2x2048x64.Idx) (q : dW.contr.Idx) : (dW.rhsIdx i q 1).val = (i 2).val := by
  unfold DotDims.rhsIdx
  rw [dif_neg (show ¬(1 : Fin S128x64.rank) ∈ dW.rhsBatch by decide), dif_pos (show (1 : Fin S128x64.rank) ∈ dW.rhsNonContracting by decide)]
  rfl

/-- A product with a hop's weights, one batch element at a time, is the matrix product. -/
theorem batch_dotW (T : FVec Ideal S2x2048x128 .f32) (w : FVec Ideal S128x64 .f32) (b : Fin 2) :
    batch (Host.dotGeneral dW none T w) b = emul (batch T b) (plain w) := by
  funext i j
  show Host.dotGeneral dW none T w (ix3 b i j) = ∑ k : Fin 128, T (ix3 b i k) * w (ix2 k j)
  simp only [Host.dotGeneral]
  rw [Ideal.dotGeneral_apply, ← Equiv.sum_comp (contrEquiv1 dW 128 rfl rfl).symm]
  refine Finset.sum_congr rfl fun k _ => ?_
  have hk := contrEquiv1_symm_val dW 128 rfl rfl k
  have el : dW.lhsIdx (ix3 b i j) ((contrEquiv1 dW 128 rfl rfl).symm k) = ix3 b i k := funext fun a => Fin.ext (by
    match a with
    | ⟨0, _⟩ => exact dW_lhs_0 _ _
    | ⟨1, _⟩ => exact dW_lhs_1 _ _
    | ⟨2, _⟩ => exact (dW_lhs_2 _ _).trans hk)
  have er : dW.rhsIdx (ix3 b i j) ((contrEquiv1 dW 128 rfl rfl).symm k) = ix2 k j := funext fun a => Fin.ext (by
    match a with
    | ⟨0, _⟩ => exact (dW_rhs_0 _ _).trans hk
    | ⟨1, _⟩ => exact dW_rhs_1 _ _)
  rw [el, er]

theorem dA_lhs_0 (i : S2x2048x128.Idx) (q : dA.contr.Idx) : (dA.lhsIdx i q 0).val = (i 0).val := by
  unfold DotDims.lhsIdx
  rw [dif_pos (show (0 : Fin S2x2048x2048.rank) ∈ dA.lhsBatch by decide)]
  rfl
theorem dA_lhs_1 (i : S2x2048x128.Idx) (q : dA.contr.Idx) : (dA.lhsIdx i q 1).val = (i 1).val := by
  unfold DotDims.lhsIdx
  rw [dif_neg (show ¬(1 : Fin S2x2048x2048.rank) ∈ dA.lhsBatch by decide), dif_pos (show (1 : Fin S2x2048x2048.rank) ∈ dA.lhsNonContracting by decide)]
  rfl
theorem dA_lhs_2 (i : S2x2048x128.Idx) (q : dA.contr.Idx) : (dA.lhsIdx i q 2).val = (q ⟨0, by decide⟩).val :=
  dA.lhsIdx_val_of_single rfl i q
theorem dA_rhs_0 (i : S2x2048x128.Idx) (q : dA.contr.Idx) : (dA.rhsIdx i q 0).val = (i 0).val := by
  unfold DotDims.rhsIdx
  rw [dif_pos (show (0 : Fin S2x2048x128.rank) ∈ dA.rhsBatch by decide)]
  rfl
theorem dA_rhs_1 (i : S2x2048x128.Idx) (q : dA.contr.Idx) : (dA.rhsIdx i q 1).val = (q ⟨0, by decide⟩).val :=
  dA.rhsIdx_val_of_single rfl i q
theorem dA_rhs_2 (i : S2x2048x128.Idx) (q : dA.contr.Idx) : (dA.rhsIdx i q 2).val = (i 2).val := by
  unfold DotDims.rhsIdx
  rw [dif_neg (show ¬(2 : Fin S2x2048x128.rank) ∈ dA.rhsBatch by decide), dif_pos (show (2 : Fin S2x2048x128.rank) ∈ dA.rhsNonContracting by decide)]
  rfl

/-- A product with the graph, one batch element at a time, is the matrix product. -/
theorem batch_dotA (A : FVec Ideal S2x2048x2048 .f32) (T : FVec Ideal S2x2048x128 .f32) (b : Fin 2) :
    batch (Host.dotGeneral dA none A T) b = emul (batch A b) (batch T b) := by
  funext i j
  show Host.dotGeneral dA none A T (ix3 b i j) = ∑ k : Fin 2048, A (ix3 b i k) * T (ix3 b k j)
  simp only [Host.dotGeneral]
  rw [Ideal.dotGeneral_apply, ← Equiv.sum_comp (contrEquiv1 dA 2048 rfl rfl).symm]
  refine Finset.sum_congr rfl fun k _ => ?_
  have hk := contrEquiv1_symm_val dA 2048 rfl rfl k
  have el : dA.lhsIdx (ix3 b i j) ((contrEquiv1 dA 2048 rfl rfl).symm k) = ix3 b i k := funext fun a => Fin.ext (by
    match a with
    | ⟨0, _⟩ => exact dA_lhs_0 _ _
    | ⟨1, _⟩ => exact dA_lhs_1 _ _
    | ⟨2, _⟩ => exact (dA_lhs_2 _ _).trans hk)
  have er : dA.rhsIdx (ix3 b i j) ((contrEquiv1 dA 2048 rfl rfl).symm k) = ix3 b k j := funext fun a => Fin.ext (by
    match a with
    | ⟨0, _⟩ => exact dA_rhs_0 _ _
    | ⟨1, _⟩ => exact (dA_rhs_1 _ _).trans hk
    | ⟨2, _⟩ => exact dA_rhs_2 _ _)
  rw [el, er]

/-- A sum of arrays, one batch element at a time, is the entrywise sum. -/
theorem batch_addf {m f : ℕ} (x y : FVec Ideal ⟨3, ![2, m, f]⟩ .f32) (b : Fin 2) :
    batch (addf x y) b = eadd (batch x b) (batch y b) := rfl

/-- Hop k of the weights: the slice [k:k+1] of the [5, 128, 64] array, its unit axis dropped. -/
theorem plain_hop (W : FVec Ideal S5x128x64 .f32) (k : ℕ) (hk : k < 5) (hs : S5x128x64.Slices ![k, 0, 0] S1x128x64)
    (hc : S1x128x64.ShapeCasts S128x64) :
    plain (shapeCast S128x64 (extractStridedSlice S1x128x64 ![k, 0, 0] W hs) hc) = hops W ⟨k, hk⟩ := by
  funext r j
  show shapeCast S128x64 (extractStridedSlice S1x128x64 ![k, 0, 0] W hs) hc (ix2 r j) = W (ix3 ⟨k, hk⟩ r j)
  rw [shapeCast_1ab_ab_apply]
  exact extractStridedSlice_apply ![k, 0, 0] W hs _ (ix3 ⟨k, hk⟩ r j) (fun a => match a with
    | ⟨0, _⟩ => by show k = k + 0; omega
    | ⟨1, _⟩ => by show r.val = 0 + r.val; omega
    | ⟨2, _⟩ => by show j.val = 0 + j.val; omega)

/-! ## The layout operations of the program, one batch element at a time -/

/-- Two arrays of 64 features joined on the feature axis are, in each batch element, the two matrices side by side. -/
theorem batch_concat (X Y : FVec Ideal S2x2048x64 .f32) (h : Shape.Concatenates [S2x2048x64, S2x2048x64] S2x2048x128 2)
    (b : Fin 2) :
    batch (concatenate S2x2048x128 2 [⟨S2x2048x64, X⟩, ⟨S2x2048x64, Y⟩] h) b = hcat64 (batch X b) (batch Y b) := by
  funext i j
  show concatenate S2x2048x128 2 [⟨S2x2048x64, X⟩, ⟨S2x2048x64, Y⟩] h (ix3 b i j) = hcat64 (batch X b) (batch Y b) i j
  unfold hcat64
  by_cases hj : j.val < 64
  · rw [dif_pos hj]
    exact concatenate_pair_apply_left 2 X Y h (ix3 b i j) rfl (ix3 b i ⟨j.val, hj⟩) (fun a => match a with
      | ⟨0, _⟩ => rfl
      | ⟨1, _⟩ => rfl
      | ⟨2, _⟩ => rfl)
  · rw [dif_neg hj]
    exact concatenate_pair_apply_right 2 X Y h (ix3 b i j) rfl rfl (ix3 b i ⟨j.val - 64, by have := j.isLt; omega⟩)
      (fun a => match a with
        | ⟨0, _⟩ => fun _ => rfl
        | ⟨1, _⟩ => fun _ => rfl
        | ⟨2, _⟩ => fun hne => absurd rfl hne)
      (by show (j.val - 64) + 64 = j.val; omega)

/-- A bias of shape [2048, 64] broadcast over the batch reads, in every batch element, the bias itself. -/
theorem bias_apply (B : FVec Ideal S2048x64 .f32) (h1 : S2048x64.BroadcastsInDim S1x2048x64 (![1, 2] : Fin 2 → Fin S1x2048x64.rank))
    (h2 : S1x2048x64.BroadcastsInDim S2x2048x64 (![0, 1, 2] : Fin 3 → Fin S2x2048x64.rank)) (b : Fin 2) (i : Fin 2048) (j : Fin 64) :
    broadcastInDim S2x2048x64 ![0, 1, 2] h2 (broadcastInDim S1x2048x64 ![1, 2] h1 B) (ix3 b i j) = B (ix2 i j) := by
  refine (broadcastInDim_apply _ h2 _ (ix3 b i j) (ix3 (0 : Fin 1) i j) (fun a => match a with
    | ⟨0, _⟩ => by show 0 = if (1 : Nat) = 1 then 0 else b.val; rw [if_pos rfl]
    | ⟨1, _⟩ => by show i.val = if (2048 : Nat) = 1 then 0 else i.val; rw [if_neg (by decide)]
    | ⟨2, _⟩ => by show j.val = if (64 : Nat) = 1 then 0 else j.val; rw [if_neg (by decide)])).trans ?_
  exact broadcastInDim_apply _ h1 B (ix3 (0 : Fin 1) i j) (ix2 i j) (fun a => match a with
    | ⟨0, _⟩ => by show i.val = if (2048 : Nat) = 1 then 0 else i.val; rw [if_neg (by decide)]
    | ⟨1, _⟩ => by show j.val = if (64 : Nat) = 1 then 0 else j.val; rw [if_neg (by decide)])

/-- The constant one broadcast to every entry reads its word everywhere. -/
theorem ones_apply (h : S_.BroadcastsInDim S2x2048x64 (![] : Fin 0 → Fin S2x2048x64.rank)) (i : S2x2048x64.Idx) :
    broadcastInDim S2x2048x64 ![] h (constant (F := Ideal) S_ .f32 0x3F800000#32) i = oneWord := by
  rw [broadcastInDim_scalar_apply]
  rfl

/-- The logistic function as the program spells it, 1 / (1 + exp (−x)) in the host's operations with both ones the
    constant word, is the logistic function at each entry. -/
theorem sigmoid_apply (P o1 o2 : FVec Ideal S2x2048x64 .f32) (i : S2x2048x64.Idx) (h1 : o1 i = oneWord) (h2 : o2 i = oneWord) :
    Host.divf o2 (addf o1 (Host.exp (Host.negf P))) i = Ideal.logistic (P i) := by
  show Ideal.div (o2 i) (o1 i + Ideal.exp (-(P i))) = Ideal.logistic (P i)
  rw [h1, h2]
  show Ideal.div (Ideal.ofBits .f32 0x3F800000#32) (Ideal.ofBits .f32 0x3F800000#32 + Ideal.exp (-(P i))) = Ideal.logistic (P i)
  rw [Ideal.ofBits_one_f32]
  rfl

/-! ## The five-hop convolution, as the program computes it -/

/-- The program's convolution: the features times hop 0's weights, and four times the features pushed once more along
    the graph times the next hop's weights, summed as it goes. -/
def conv (A : FVec Ideal S2x2048x2048 .f32) (Z : FVec Ideal S2x2048x128 .f32) (W : FVec Ideal S5x128x64 .f32) :
    FVec Ideal S2x2048x64 .f32 :=
  addf (addf (addf (addf
    (Host.dotGeneral dW none Z
      (shapeCast S128x64 (extractStridedSlice S1x128x64 ![0, 0, 0] W slices_S5x128x64_S1x128x64_0_0_0) shapeCasts_S1x128x64_S128x64))
    (Host.dotGeneral dW none (Host.dotGeneral dA none A Z)
      (shapeCast S128x64 (extractStridedSlice S1x128x64 ![1, 0, 0] W slices_S5x128x64_S1x128x64_1_0_0) shapeCasts_S1x128x64_S128x64)))
    (Host.dotGeneral dW none (Host.dotGeneral dA none A (Host.dotGeneral dA none A Z))
      (shapeCast S128x64 (extractStridedSlice S1x128x64 ![2, 0, 0] W slices_S5x128x64_S1x128x64_2_0_0) shapeCasts_S1x128x64_S128x64)))
    (Host.dotGeneral dW none (Host.dotGeneral dA none A (Host.dotGeneral dA none A (Host.dotGeneral dA none A Z)))
      (shapeCast S128x64 (extractStridedSlice S1x128x64 ![3, 0, 0] W slices_S5x128x64_S1x128x64_3_0_0) shapeCasts_S1x128x64_S128x64)))
    (Host.dotGeneral dW none (Host.dotGeneral dA none A (Host.dotGeneral dA none A (Host.dotGeneral dA none A (Host.dotGeneral dA none A Z))))
      (shapeCast S128x64 (extractStridedSlice S1x128x64 ![4, 0, 0] W slices_S5x128x64_S1x128x64_4_0_0) shapeCasts_S1x128x64_S128x64))

/-- In each batch element the program's convolution is the sum over the hops. -/
theorem batch_conv (A : FVec Ideal S2x2048x2048 .f32) (Z : FVec Ideal S2x2048x128 .f32) (W : FVec Ideal S5x128x64 .f32) (b : Fin 2) :
    batch (conv A Z W) b = powers (batch A b) (batch Z b) (hops W) := by
  unfold conv powers
  simp only [batch_addf, batch_dotW, batch_dotA]
  rw [plain_hop W 0 (by omega), plain_hop W 1 (by omega), plain_hop W 2 (by omega), plain_hop W 3 (by omega), plain_hop W 4 (by omega)]
  rfl

/-- A gate's array from its pre-activation: the logistic function of the pre-activation plus the bias. -/
def gateOf (P : FVec Ideal S2x2048x64 .f32) (B : FVec Ideal S2048x64 .f32) : FVec Ideal S2x2048x64 .f32 :=
  Host.divf (broadcastInDim S2x2048x64 ![] bcast_S_S2x2048x64 (constant (F := Ideal) S_ .f32 0x3F800000#32))
    (addf (broadcastInDim S2x2048x64 ![] bcast_S_S2x2048x64 (constant (F := Ideal) S_ .f32 0x3F800000#32))
      (Host.exp (Host.negf (addf P
        (broadcastInDim S2x2048x64 ![0, 1, 2] bcast_S1x2048x64_S2x2048x64_0_1_2
          (broadcastInDim S1x2048x64 ![1, 2] bcast_S2048x64_S1x2048x64_1_2 B))))))

/-- A gate at an entry: the logistic function of the pre-activation plus the bias there. -/
theorem gateOf_apply (P : FVec Ideal S2x2048x64 .f32) (B : FVec Ideal S2048x64 .f32) (b : Fin 2) (i : Fin 2048) (j : Fin 64) :
    gateOf P B (ix3 b i j) = Ideal.logistic (batch P b i j + plain B i j) := by
  unfold gateOf
  rw [sigmoid_apply _ _ _ _ (ones_apply _ _) (ones_apply _ _), addf_apply, bias_apply]
  rfl

/-! ## The reference program at an entry -/

open Cert.ReferenceIdeal.Read in
/-- The reference program's result at batch element b, node i, feature j is the cell with every convolution the sum over
    the hops, on batch element b of the features, the graph and the state. -/
theorem reference_entry (x0 : FVec Ideal S2x2048x64 .f32) (x1 : FVec Ideal S2x2048x2048 .f32) (x2 : FVec Ideal S2x2048x64 .f32)
    (x3 x4 x5 : FVec Ideal S5x128x64 .f32) (x6 x7 x8 : FVec Ideal S2048x64 .f32) (b : Fin 2) (i : Fin 2048) (j : Fin 64) :
    Cert.ReferenceIdeal.Read.val_main_v98 (F := Ideal) x0 x1 x2 x3 x4 x5 x6 x7 x8 (ix3 b i j)
      = gruPowers (batch x1 b) (batch x0 b) (batch x2 b) (hops x3) (hops x4) (hops x5) (plain x6) (plain x7) (plain x8) i j := by
  -- the program's values, cut at the three convolutions, the two gates and the blend
  have e23 : val_main_v23 (F := Ideal) x0 x1 x2 x3 = conv x1 (val_main_v0 (F := Ideal) x0 x2) x3 := rfl
  have e55 : val_main_v55 (F := Ideal) x0 x1 x2 x4 = conv x1 (val_main_v0 (F := Ideal) x0 x2) x4 := rfl
  have e89 : val_main_v89 (F := Ideal) x0 x1 x2 x3 x5 x6 = conv x1 (val_main_v66 (F := Ideal) x0 x1 x2 x3 x6) x5 := rfl
  have e32 : val_main_v32 (F := Ideal) x0 x1 x2 x3 x6 = gateOf (val_main_v23 (F := Ideal) x0 x1 x2 x3) x6 := rfl
  have e64 : val_main_v64 (F := Ideal) x0 x1 x2 x4 x7 = gateOf (val_main_v55 (F := Ideal) x0 x1 x2 x4) x7 := rfl
  -- [X | H]
  have hXH : batch (val_main_v0 (F := Ideal) x0 x2) b = hcat64 (batch x0 b) (batch x2 b) := batch_concat x0 x2 _ b
  -- the reset gate applied to the state, and [X | r ⊙ H]
  have h65 : batch (val_main_v65 (F := Ideal) x0 x1 x2 x3 x6) b
      = gated (powers (batch x1 b) (hcat64 (batch x0 b) (batch x2 b)) (hops x3)) (plain x6) (batch x2 b) := by
    funext r c
    show mulf (val_main_v32 (F := Ideal) x0 x1 x2 x3 x6) x2 (ix3 b r c) = _
    rw [mulf_apply, e32, gateOf_apply, e23, batch_conv, hXH]
    rfl
  have h66 : batch (val_main_v66 (F := Ideal) x0 x1 x2 x3 x6) b
      = hcat64 (batch x0 b) (gated (powers (batch x1 b) (hcat64 (batch x0 b) (batch x2 b)) (hops x3)) (plain x6) (batch x2 b)) := by
    rw [← h65]
    exact batch_concat x0 _ _ b
  -- the blend, entry by entry
  have e98 : val_main_v98 (F := Ideal) x0 x1 x2 x3 x4 x5 x6 x7 x8 (ix3 b i j)
      = val_main_v64 (F := Ideal) x0 x1 x2 x4 x7 (ix3 b i j) * x2 (ix3 b i j)
        + (broadcastInDim S2x2048x64 ![] bcast_S_S2x2048x64 (constant (F := Ideal) S_ .f32 0x3F800000#32) (ix3 b i j)
            - val_main_v64 (F := Ideal) x0 x1 x2 x4 x7 (ix3 b i j))
          * Ideal.tanh (batch (val_main_v89 (F := Ideal) x0 x1 x2 x3 x5 x6) b i j
              + broadcastInDim S2x2048x64 ![0, 1, 2] bcast_S1x2048x64_S2x2048x64_0_1_2
                  (broadcastInDim S1x2048x64 ![1, 2] bcast_S2048x64_S1x2048x64_1_2 x8) (ix3 b i j)) := rfl
  rw [e98, e64, gateOf_apply, e55, ones_apply, bias_apply, e89, batch_conv, batch_conv, h66, hXH]
  rfl

end Cert.ReferenceValue

end
-- ==== Proof.FiniteInputs.lean ====
import proofs.«167347_g42064909697411_cont_8to1_b_244_7_alg».proof.Pre_finite_inputs
import Idealize.ShloMosaic.Lib.ReduceAll
import Idealize.ShloMosaic.Lib.ValueIdx
import Idealize.ShloMosaic.PureOps.Ideal.Laws

/-!
# Finite inputs are real

The precondition on the nine float inputs says, for each input `x`, that the conjunction over all
entries of `|x i| < +∞` holds, and that the nine conjunctions hold together. Over the extended
reals `|x| = max x (-x)`, and `max x (-x) < ⊤` excludes both `⊤` and `⊥` (for `x = ⊥` the
negation is `⊤`). So every entry of every input is the image of a real number.
-/

namespace Cert.Diffusion

open Idealize.ShloMosaic Cert.Pre_finite_inputs

/-- The rank-0 shape has exactly one index. -/
instance subsingleton_scalar_idx : Subsingleton S_.Idx := ⟨fun a b => funext fun d => d.elim0⟩

/-- An extended real whose absolute value `max x (-x)` lies strictly below `⊤` is a real:
    `⊤` fails at once, and `⊥` fails because `-⊥ = ⊤`. -/
theorem exists_real_of_abs_lt_top (x : EReal) (h : max x (-x) < ⊤) : ∃ r : ℝ, x = ((r : ℝ) : EReal) := by
  induction x using EReal.rec with
  | bot => simp at h
  | coe r => exact ⟨r, rfl⟩
  | top => simp at h

/-- The word `0x7F800000` (sign 0, exponent all ones, fraction 0) denotes `+∞`. -/
theorem ofBits_inf_f32 : Ideal.ofBits .f32 0x7F800000#32 = (⊤ : EReal) := by
  simp [Ideal.ofBits, Ideal.ieee]

/-- One value: the comparison `|x| < +∞` coming out true makes `x` a real. -/
theorem exists_real_of_cmp (x : Ideal .f32)
    (h : FloatOps.cmpf .olt (FloatOps.hostAbsf x) (FloatOps.ofBits (F := Ideal) .f32 0x7F800000#32) = 1#1) :
    ∃ r : ℝ, x = ((r : ℝ) : EReal) := by
  have h' : Ideal.cmp .olt (max (x : EReal) (-(x : EReal))) (Ideal.ofBits .f32 0x7F800000#32) = 1#1 := h
  rw [ofBits_inf_f32] at h'
  unfold Ideal.cmp at h'
  refine exists_real_of_abs_lt_top x ?_
  by_contra hn
  simp [hn] at h'

/-- One input, of any shape: if the conjunction over all entries of `|v i| < +∞` is true,
    every entry of `v` is a real. -/
theorem entries_real {s : Shape} {axes : List (Fin s.rank)} (v : FVec Ideal s .f32)
    (hb : S_.BroadcastsInDim s (![] : Fin 0 → Fin s.rank)) (hr : s.ReducesTo axes S_) (hu : 0 < S_.numel)
    (h : Host.reduce IntOp.andi
          (cmpf .olt (Host.absf v) (broadcastInDim s ![] hb (constant S_ .f32 0x7F800000#32)))
          (constantI S_ 1 1#1) hr hu ValueIdx.ix0 = 1#1) :
    ∀ i, ∃ r : ℝ, v i = ((r : ℝ) : EReal) := by
  intro i
  exact exists_real_of_cmp (v i) (Host.reduce_andi_all _ _ hr hu _ h i)

/-- The nine inputs: the precondition being all ones makes every entry of every input a real. -/
theorem real_of_finite [Facts] (x0 : FVec Ideal S2x2048x64 .f32) (x1 : FVec Ideal S2x2048x2048 .f32)
    (x2 : FVec Ideal S2x2048x64 .f32) (x3 x4 x5 : FVec Ideal S5x128x64 .f32) (x6 x7 x8 : FVec Ideal S2048x64 .f32)
    (h : Cert.Pre_finite_inputs.fn (F := Ideal) x0 x1 x2 x3 x4 x5 x6 x7 x8 = fun _ => 1#1) :
    (∀ i, ∃ r : ℝ, x0 i = ((r : ℝ) : EReal)) ∧ (∀ i, ∃ r : ℝ, x1 i = ((r : ℝ) : EReal))
    ∧ (∀ i, ∃ r : ℝ, x2 i = ((r : ℝ) : EReal)) ∧ (∀ i, ∃ r : ℝ, x3 i = ((r : ℝ) : EReal))
    ∧ (∀ i, ∃ r : ℝ, x4 i = ((r : ℝ) : EReal)) ∧ (∀ i, ∃ r : ℝ, x5 i = ((r : ℝ) : EReal))
    ∧ (∀ i, ∃ r : ℝ, x6 i = ((r : ℝ) : EReal)) ∧ (∀ i, ∃ r : ℝ, x7 i = ((r : ℝ) : EReal))
    ∧ (∀ i, ∃ r : ℝ, x8 i = ((r : ℝ) : EReal)) := by
  have h0 := congrFun h ValueIdx.ix0
  dsimp only [fn, fn_part1, fn_part2, andi] at h0
  simp only [IntOp.andi_eq_one] at h0
  obtain ⟨⟨⟨⟨⟨⟨⟨⟨e0, e1⟩, e2⟩, e3⟩, e4⟩, e5⟩, e6⟩, e7⟩, e8⟩ := h0
  exact ⟨entries_real x0 _ _ _ e0, entries_real x1 _ _ _ e1, entries_real x2 _ _ _ e2,
    entries_real x3 _ _ _ e3, entries_real x4 _ _ _ e4, entries_real x5 _ _ _ e5,
    entries_real x6 _ _ _ e6, entries_real x7 _ _ _ e7, entries_real x8 _ _ _ e8⟩

end Cert.Diffusion
-- ==== Proof.Equivalence.lean ====
/-
  The kernel and the reference compute one array.

  Entry (b, i, j) of the kernel's result is the GRU cell of batch element b by Horner's rule, its reset and update
  gates sharing one recursion over the packed weights [W_r[k] | W_u[k]]; entry (b, i, j) of the reference's result is
  the same cell with each diffusion convolution taken as the sum over the hops. The host's packing of the weights and
  its narrow copy of the graph are read back to the arguments, and the precondition — every input entry finite —
  makes every entry a real number, where Horner's form and the sum over the hops agree (associativity of the matrix
  product and its distributivity over sums, which fail at the infinities and hold on the reals).
-/
import proofs.«167347_g42064909697411_cont_8to1_b_244_7_alg».proof.Proof.KernelArray
import proofs.«167347_g42064909697411_cont_8to1_b_244_7_alg».proof.Proof.HostGlue
import proofs.«167347_g42064909697411_cont_8to1_b_244_7_alg».proof.Proof.KernelBody
import proofs.«167347_g42064909697411_cont_8to1_b_244_7_alg».proof.Proof.ReferenceValue
import proofs.«167347_g42064909697411_cont_8to1_b_244_7_alg».proof.Proof.FiniteInputs
import proofs.«167347_g42064909697411_cont_8to1_b_244_7_alg».proof.Proof.Gen.Pre_finite_inputs

noncomputable section

namespace Cert.Equivalence

open Idealize.ShloMosaic Idealize.ShloMosaic.TcCoe Idealize.SL.Sem Idealize.ShloMosaic.ValueIdx Cert.Diffusion

/-- Under the precondition the kernel's result array is, entry by entry, the reference's value: the kernel's body is the
    cell by Horner's rule over the packed weights, the reference is the cell with each convolution the sum over the
    hops, and finite inputs are real, where the two arrangements agree. -/
theorem kernel_eq_reference (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) = fun _ => 1#1) :
    @Eq (Cert.KernelIdeal.S2x2048x64.Idx → EReal)
      ((Cert.KernelIdeal.Gen.dats m 0 c).arrAt 8 Cert.KernelIdeal.cfg0.N)
      (Cert.ReferenceIdeal.Read.val_main_v98 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))) := by
  obtain ⟨hX, hA, hH, hWr, hWu, hWc, hbr, hbu, hbc⟩ := Cert.Diffusion.real_of_finite _ _ _ _ _ _ _ _ _ hpre
  funext idx
  obtain ⟨b, i, j, rfl⟩ : ∃ (b : Fin 2) (i : Fin 2048) (j : Fin 64), idx = ix3 b i j := ⟨idx 0, idx 1, idx 2, eq_ix3 idx⟩
  rw [Cert.ReferenceValue.reference_entry, Cert.KernelIdeal.Whole.final]
  unfold Cert.KernelIdeal.Whole.result
  rw [Cert.KernelBody.out_entry, Cert.KernelIdeal.Operands.graph_batch, Cert.KernelIdeal.Operands.gateWeights_packed,
    Cert.KernelIdeal.Operands.candWeights_packed, Cert.KernelIdeal.Gen.V_main_arg0, Cert.KernelIdeal.Gen.V_main_arg2,
    Cert.KernelIdeal.Gen.V_main_arg6, Cert.KernelIdeal.Gen.V_main_arg7, Cert.KernelIdeal.Gen.V_main_arg8]
  exact congrFun (congrFun (gruHorner_eq_gruPowers _ _ (fun p q => hA (ix3 b p q)) (fun p q => hX (ix3 b p q))
    (fun p q => hH (ix3 b p q)) (fun k p q => hWr (ix3 k p q)) (fun k p q => hWu (ix3 k p q)) (fun k p q => hWc (ix3 k p q))
    (fun p q => hbr (ix2 p q))) i) j

end Cert.Equivalence

end
-- ==== Proof.lean ====
/-
  The certificate of a graph-diffusion GRU cell: a fused kernel against its array-level reference.

  The reference computes, for two batch elements, r = σ(conv([X | H], W_r) + b_r), u = σ(conv([X | H], W_u) + b_u),
  c = tanh(conv([X | r ⊙ H], W_c) + b_c) and H' = u ⊙ H + (1 − u) ⊙ c, where conv(Z, W) = Σₖ (Aᵏ Z) W[k] over five hops of
  the graph A. The kernel computes each convolution by Horner's rule, Z W[0] + A (Z W[1] + A (… + A (Z W[4]))), on
  matrices already projected to the output width, runs the r and u recursions as one of double width over weights
  packed side by side, and multiplies by a narrower-format copy of A. Over the extended reals a change of float format
  is the identity and the two arrangements of the convolution are equal wherever the entries are real, which the
  precondition (all inputs finite) gives; the logistic function is one function in both programs' spellings.

  The three frames are the generated ones (the reference's is its generated run with the result dropped); the ideal
  pass rewrote nothing, so the kernel's idealization is its own text; the value claim sets the kernel's result array
  (the body's output function of its operands, the call having a single point that stages every operand whole) beside
  the reference's composed term and identifies them entry by entry.
-/
import proofs.«167347_g42064909697411_cont_8to1_b_244_7_alg».proof.Defs
import proofs.«167347_g42064909697411_cont_8to1_b_244_7_alg».proof.Proof.Gen.Kernel
import proofs.«167347_g42064909697411_cont_8to1_b_244_7_alg».proof.Proof.Gen.Kernel.Skeleton
import proofs.«167347_g42064909697411_cont_8to1_b_244_7_alg».proof.Proof.Gen.Kernel.Launch
import proofs.«167347_g42064909697411_cont_8to1_b_244_7_alg».proof.Proof.Gen.Kernel.Points
import proofs.«167347_g42064909697411_cont_8to1_b_244_7_alg».proof.Proof.Gen.Kernel.Frame
import proofs.«167347_g42064909697411_cont_8to1_b_244_7_alg».proof.Proof.Gen.KernelIdeal
import proofs.«167347_g42064909697411_cont_8to1_b_244_7_alg».proof.Proof.Gen.KernelIdeal.Skeleton
import proofs.«167347_g42064909697411_cont_8to1_b_244_7_alg».proof.Proof.Gen.KernelIdeal.Launch
import proofs.«167347_g42064909697411_cont_8to1_b_244_7_alg».proof.Proof.Gen.KernelIdeal.Points
import proofs.«167347_g42064909697411_cont_8to1_b_244_7_alg».proof.Proof.Gen.KernelIdeal.Frame
import proofs.«167347_g42064909697411_cont_8to1_b_244_7_alg».proof.Proof.Gen.ReferenceIdeal
import proofs.«167347_g42064909697411_cont_8to1_b_244_7_alg».proof.Proof.Gen.Pre_finite_inputs
import proofs.«167347_g42064909697411_cont_8to1_b_244_7_alg».proof.Proof.Gen.KernelIdeal.Value
import proofs.«167347_g42064909697411_cont_8to1_b_244_7_alg».proof.Proof.Gen.ReferenceIdeal.Run
import proofs.«167347_g42064909697411_cont_8to1_b_244_7_alg».proof.Proof.Gen.ReferenceIdeal.Read
import proofs.«167347_g42064909697411_cont_8to1_b_244_7_alg».proof.Proof.Equivalence
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- From memories that agree on the arguments, the idealized kernel ends with its result array at the body's output of
    the operands and the reference with its composed term; under the precondition the two are one array. -/
theorem algebraic : Cert.algebraic_KernelIdeal_ReferenceIdeal := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v98_eq, a0, a1, a2, a3, a4, a5, a6, a7, a8]
  exact (Cert.Equivalence.kernel_eq_reference m c (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
